-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x602 : Shape := ⟨2, ![1024, 602]⟩
abbrev S25600x602 : Shape := ⟨2, ![25600, 602]⟩
abbrev S256000x602 : Shape := ⟨2, ![256000, 602]⟩
abbrev S1204x256 : Shape := ⟨2, ![1204, 256]⟩
abbrev S512x41 : Shape := ⟨2, ![512, 41]⟩
abbrev S_ : Shape := ⟨0, ![]⟩

class Facts : Prop where
  bcast_S_S1024x602 : S_.BroadcastsInDim S1024x602 (![] : Fin 0 → Fin S1024x602.rank)
  reducesTo_S1024x602_S_d0_1 : S1024x602.ReducesTo [0, 1] S_
  h_S_ : 0 < S_.numel
  bcast_S_S25600x602 : S_.BroadcastsInDim S25600x602 (![] : Fin 0 → Fin S25600x602.rank)
  reducesTo_S25600x602_S_d0_1 : S25600x602.ReducesTo [0, 1] S_
  bcast_S_S256000x602 : S_.BroadcastsInDim S256000x602 (![] : Fin 0 → Fin S256000x602.rank)
  reducesTo_S256000x602_S_d0_1 : S256000x602.ReducesTo [0, 1] S_
  bcast_S_S1204x256 : S_.BroadcastsInDim S1204x256 (![] : Fin 0 → Fin S1204x256.rank)
  reducesTo_S1204x256_S_d0_1 : S1204x256.ReducesTo [0, 1] S_
  bcast_S_S512x41 : S_.BroadcastsInDim S512x41 (![] : Fin 0 → Fin S512x41.rank)
  reducesTo_S512x41_S_d0_1 : S512x41.ReducesTo [0, 1] S_

variable [Facts]

def fn_part1 {F : FTy → Type} [FloatOps F] (main_arg4 : FVec F S512x41 .f32) (main_v13 : IVec S_ 1) (main_v16 : IVec S1204x256 1) : IVec S_ 1 :=
  let main_c_5 : IVec S_ 1 := constantI S_ 1 1#1
  let main_v17 : IVec S_ 1 := (fun x v => Host.reduce IntOp.andi x v reducesTo_S1204x256_S_d0_1 h_S_) main_v16 main_c_5
  let main_v18 : IVec S_ 1 := andi main_v13 main_v17
  let main_v19 : FVec F S512x41 .f32 := Host.absf main_arg4
  let main_cst_6 : FVec F S_ .f32 := constant S_ .f32 0x7F800000#32
  let main_v20 : FVec F S512x41 .f32 := broadcastInDim S512x41 ![] bcast_S_S512x41 main_cst_6
  let main_v21 : IVec S512x41 1 := cmpf .olt main_v19 main_v20
  let main_c_7 : IVec S_ 1 := constantI S_ 1 1#1
  let main_v22 : IVec S_ 1 := (fun x v => Host.reduce IntOp.andi x v reducesTo_S512x41_S_d0_1 h_S_) main_v21 main_c_7
  let main_v23 : IVec S_ 1 := andi main_v18 main_v22
  main_v23

def fn {F : FTy → Type} [FloatOps F] (main_arg0 : FVec F S1024x602 .f32) (main_arg1 : FVec F S25600x602 .f32) (main_arg2 : FVec F S256000x602 .f32) (main_arg3 : FVec F S1204x256 .f32) (main_arg4 : FVec F S512x41 .f32) : IVec S_ 1 :=
  let main_v0 : FVec F S1024x602 .f32 := Host.absf main_arg0
  let main_cst : FVec F S_ .f32 := constant S_ .f32 0x7F800000#32
  let main_v1 : FVec F S1024x602 .f32 := broadcastInDim S1024x602 ![] bcast_S_S1024x602 main_cst
  let main_v2 : IVec S1024x602 1 := cmpf .olt main_v0 main_v1
  let main_c : IVec S_ 1 := constantI S_ 1 1#1
  let main_v3 : IVec S_ 1 := (fun x v => Host.reduce IntOp.andi x v reducesTo_S1024x602_S_d0_1 h_S_) main_v2 main_c
  let main_v4 : FVec F S25600x602 .f32 := Host.absf main_arg1
  let main_cst_0 : FVec F S_ .f32 := constant S_ .f32 0x7F800000#32
  let main_v5 : FVec F S25600x602 .f32 := broadcastInDim S25600x602 ![] bcast_S_S25600x602 main_cst_0
  let main_v6 : IVec S25600x602 1 := cmpf .olt main_v4 main_v5
  let main_c_1 : IVec S_ 1 := constantI S_ 1 1#1
  let main_v7 : IVec S_ 1 := (fun x v => Host.reduce IntOp.andi x v reducesTo_S25600x602_S_d0_1 h_S_) main_v6 main_c_1
  let main_v8 : IVec S_ 1 := andi main_v3 main_v7
  let main_v9 : FVec F S256000x602 .f32 := Host.absf main_arg2
  let main_cst_2 : FVec F S_ .f32 := constant S_ .f32 0x7F800000#32
  let main_v10 : FVec F S256000x602 .f32 := broadcastInDim S256000x602 ![] bcast_S_S256000x602 main_cst_2
  let main_v11 : IVec S256000x602 1 := cmpf .olt main_v9 main_v10
  let main_c_3 : IVec S_ 1 := constantI S_ 1 1#1
  let main_v12 : IVec S_ 1 := (fun x v => Host.reduce IntOp.andi x v reducesTo_S256000x602_S_d0_1 h_S_) main_v11 main_c_3
  let main_v13 : IVec S_ 1 := andi main_v8 main_v12
  let main_v14 : FVec F S1204x256 .f32 := Host.absf main_arg3
  let main_cst_4 : FVec F S_ .f32 := constant S_ .f32 0x7F800000#32
  let main_v15 : FVec F S1204x256 .f32 := broadcastInDim S1204x256 ![] bcast_S_S1204x256 main_cst_4
  let main_v16 : IVec S1204x256 1 := cmpf .olt main_v14 main_v15
  fn_part1 (F := F) main_arg4 main_v13 main_v16
-- ==== Kernel.lean ====
abbrev S1024x602 : Shape := ⟨2, ![1024, 602]⟩
abbrev S25600x602 : Shape := ⟨2, ![25600, 602]⟩
abbrev S256000x602 : Shape := ⟨2, ![256000, 602]⟩
abbrev S1204x256 : Shape := ⟨2, ![1204, 256]⟩
abbrev S512x41 : Shape := ⟨2, ![512, 41]⟩
abbrev S602x256 : Shape := ⟨2, ![602, 256]⟩
abbrev S256x41 : Shape := ⟨2, ![256, 41]⟩
abbrev S1024x25x602 : Shape := ⟨3, ![1024, 25, 602]⟩
abbrev S1024x256 : Shape := ⟨2, ![1024, 256]⟩
abbrev S256x602 : Shape := ⟨2, ![256, 602]⟩
abbrev S256x25x602 : Shape := ⟨3, ![256, 25, 602]⟩
abbrev S256x256 : Shape := ⟨2, ![256, 256]⟩
abbrev S25600x10x602 : Shape := ⟨3, ![25600, 10, 602]⟩
abbrev S25600x256 : Shape := ⟨2, ![25600, 256]⟩
abbrev S256x10x602 : Shape := ⟨3, ![256, 10, 602]⟩
abbrev S1024x25x256 : Shape := ⟨3, ![1024, 25, 256]⟩
abbrev S1024x41 : Shape := ⟨2, ![1024, 41]⟩
abbrev S256x25x256 : Shape := ⟨3, ![256, 25, 256]⟩
abbrev S256 : Shape := ⟨1, ![256]⟩
abbrev S256x1 : Shape := ⟨2, ![256, 1]⟩

abbrev nBuf : Space → Nat
  | .hbm => 15
  | .vmem => 24
  | .smem => 0
  | _ => 0

abbrev bufTy : (tb : Table) → Fin (tcTables nBuf tb) → BufTy
  | .hbm, ⟨0, _⟩ => ⟨S1024x602, .f32⟩
  | .hbm, ⟨1, _⟩ => ⟨S25600x602, .f32⟩
  | .hbm, ⟨2, _⟩ => ⟨S256000x602, .f32⟩
  | .hbm, ⟨3, _⟩ => ⟨S1204x256, .f32⟩
  | .hbm, ⟨4, _⟩ => ⟨S512x41, .f32⟩
  | .hbm, ⟨5, _⟩ => ⟨S602x256, .f32⟩
  | .hbm, ⟨6, _⟩ => ⟨S602x256, .f32⟩
  | .hbm, ⟨7, _⟩ => ⟨S256x41, .f32⟩
  | .hbm, ⟨8, _⟩ => ⟨S256x41, .f32⟩
  | .hbm, ⟨9, _⟩ => ⟨S1024x25x602, .f32⟩
  | .hbm, ⟨10, _⟩ => ⟨S1024x256, .f32⟩
  | .hbm, ⟨11, _⟩ => ⟨S25600x10x602, .f32⟩
  | .hbm, ⟨12, _⟩ => ⟨S25600x256, .f32⟩
  | .hbm, ⟨13, _⟩ => ⟨S1024x25x256, .f32⟩
  | .hbm, ⟨14, _⟩ => ⟨S1024x41, .f32⟩
  | .local _ .vmem, ⟨0, _⟩ => ⟨S256x602, .f32⟩
  | .local _ .vmem, ⟨1, _⟩ => ⟨S256x602, .f32⟩
  | .local _ .vmem, ⟨2, _⟩ => ⟨S256x25x602, .f32⟩
  | .local _ .vmem, ⟨3, _⟩ => ⟨S256x25x602, .f32⟩
  | .local _ .vmem, ⟨4, _⟩ => ⟨S602x256, .f32⟩
  | .local _ .vmem, ⟨5, _⟩ => ⟨S602x256, .f32⟩
  | .local _ .vmem, ⟨6, _⟩ => ⟨S256x256, .f32⟩
  | .local _ .vmem, ⟨7, _⟩ => ⟨S256x256, .f32⟩
  | .local _ .vmem, ⟨8, _⟩ => ⟨S256x602, .f32⟩
  | .local _ .vmem, ⟨9, _⟩ => ⟨S256x602, .f32⟩
  | .local _ .vmem, ⟨10, _⟩ => ⟨S256x10x602, .f32⟩
  | .local _ .vmem, ⟨11, _⟩ => ⟨S256x10x602, .f32⟩
  | .local _ .vmem, ⟨12, _⟩ => ⟨S602x256, .f32⟩
  | .local _ .vmem, ⟨13, _⟩ => ⟨S602x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x25x256, .f32⟩
  | .local _ .vmem, ⟨19, _⟩ => ⟨S256x25x256, .f32⟩
  | .local _ .vmem, ⟨20, _⟩ => ⟨S256x41, .f32⟩
  | .local _ .vmem, ⟨21, _⟩ => ⟨S256x41, .f32⟩
  | .local _ .vmem, ⟨22, _⟩ => ⟨S256x41, .f32⟩
  | .local _ .vmem, ⟨23, _⟩ => ⟨S256x41, .f32⟩
  | _, _ => ⟨S1024x602, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x25x602 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S602x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S602x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x602 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x10x602 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S602x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S602x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x25x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x41 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x41 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x41 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S1204x256_S602x256_0_0 : S1204x256.Slices ![0, 0] S602x256
  slices_S1204x256_S602x256_602_0 : S1204x256.Slices ![602, 0] S602x256
  slices_S512x41_S256x41_0_0 : S512x41.Slices ![0, 0] S256x41
  slices_S512x41_S256x41_256_0 : S512x41.Slices ![256, 0] S256x41
  shapeCasts_S25600x602_S1024x25x602 : S25600x602.ShapeCasts S1024x25x602
  inb_S256x602_S256x602_0_0 : ∀ a, (![0, 0] : Fin 2 → Nat) a + S256x602.size a ≤ S256x602.size a
  h_S256x602 : 0 < S256x602.numel
  inb_S256x25x602_S256x25x602_0_0_0 : ∀ a, (![0, 0, 0] : Fin 3 → Nat) a + S256x25x602.size a ≤ S256x25x602.size a
  h_S256x25x602 : 0 < S256x25x602.numel
  shapeCasts_S256x25x602_S256x25x602 : S256x25x602.ShapeCasts S256x25x602
  reduces_S256x25x602_S256x602 : S256x25x602.Reduces [1] S256x602
  bitsLt_bf16_f32 : FTy.bits .bf16 < FTy.bits .f32
  inb_S602x256_S602x256_0_0 : ∀ a, (![0, 0] : Fin 2 → Nat) a + S602x256.size a ≤ S602x256.size a
  h_S602x256 : 0 < S602x256.numel
  shapeCasts_S602x256_S602x256 : S602x256.ShapeCasts S602x256
  inb_S256x256_S256x256_0_0 : ∀ a, (![0, 0] : Fin 2 → Nat) a + S256x256.size a ≤ S256x256.size a
  h_S256x256 : 0 < S256x256.numel
  shapeCasts_S256000x602_S25600x10x602 : S256000x602.ShapeCasts S25600x10x602
  inb_S256x10x602_S256x10x602_0_0_0 : ∀ a, (![0, 0, 0] : Fin 3 → Nat) a + S256x10x602.size a ≤ S256x10x602.size a
  h_S256x10x602 : 0 < S256x10x602.numel
  shapeCasts_S256x10x602_S256x10x602 : S256x10x602.ShapeCasts S256x10x602
  reduces_S256x10x602_S256x602 : S256x10x602.Reduces [1] S256x602
  shapeCasts_S25600x256_S1024x25x256 : S25600x256.ShapeCasts S1024x25x256
  shapeCasts_S256x256_S256x256 : S256x256.ShapeCasts S256x256
  inb_S256x25x256_S256x25x256_0_0_0 : ∀ a, (![0, 0, 0] : Fin 3 → Nat) a + S256x25x256.size a ≤ S256x25x256.size a
  h_S256x25x256 : 0 < S256x25x256.numel
  shapeCasts_S256x25x256_S256x25x256 : S256x25x256.ShapeCasts S256x25x256
  reduces_S256x25x256_S256x256 : S256x25x256.Reduces [1] S256x256
  inb_S256x41_S256x41_0_0 : ∀ a, (![0, 0] : Fin 2 → Nat) a + S256x41.size a ≤ S256x41.size a
  h_S256x41 : 0 < S256x41.numel
  shapeCasts_S256x41_S256x41 : S256x41.ShapeCasts S256x41
  reduces_S256x41_S256 : S256x41.Reduces [1] S256
  shapeCasts_S256_S256x1 : S256.ShapeCasts S256x1
  broadcasts_S256x1_S256x41 : S256x1.Broadcasts S256x41
  dot_S256x602_S602x256_S256x256_1_0_0_1_n_n_wf : DotDims.WF S256x602 S602x256 S256x256 [1] [0] [0] [1] [] []
  dot_S256x256_S256x41_S256x41_1_0_0_1_n_n_wf : DotDims.WF S256x256 S256x41 S256x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x602.size a ≤ S1024x602.size a
  hwx0_0 : ∀ i : grid0.Coords, EltTy.bits .f32 = 32 ∨ (Rect.block (s := S1024x602) S256x602.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x25x602.size a ≤ S1024x25x602.size a
  hwx0_1 : ∀ i : grid0.Coords, EltTy.bits .f32 = 32 ∨ (Rect.block (s := S1024x25x602) S256x25x602.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S602x256.size a ≤ S602x256.size a
  hwx0_2 : ∀ i : grid0.Coords, EltTy.bits .f32 = 32 ∨ (Rect.block (s := S602x256) S602x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S602x256.size a ≤ S602x256.size a
  hwx0_3 : ∀ i : grid0.Coords, EltTy.bits .f32 = 32 ∨ (Rect.block (s := S602x256) S602x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S1024x256.size a
  hwx0_4 : ∀ i : grid0.Coords, EltTy.bits .f32 = 32 ∨ (Rect.block (s := S1024x256) S256x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x602.size a ≤ S25600x602.size a
  hwx1_0 : ∀ i : grid1.Coords, EltTy.bits .f32 = 32 ∨ (Rect.block (s := S25600x602) S256x602.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x10x602.size a ≤ S25600x10x602.size a
  hwx1_1 : ∀ i : grid1.Coords, EltTy.bits .f32 = 32 ∨ (Rect.block (s := S25600x10x602) S256x10x602.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S602x256.size a ≤ S602x256.size a
  hwx1_2 : ∀ i : grid1.Coords, EltTy.bits .f32 = 32 ∨ (Rect.block (s := S602x256) S602x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S602x256.size a ≤ S602x256.size a
  hwx1_3 : ∀ i : grid1.Coords, EltTy.bits .f32 = 32 ∨ (Rect.block (s := S602x256) S602x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S25600x256.size a
  hwx1_4 : ∀ i : grid1.Coords, EltTy.bits .f32 = 32 ∨ (Rect.block (s := S25600x256) S256x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S1024x256.size a
  hwx2_0 : ∀ i : grid2.Coords, EltTy.bits .f32 = 32 ∨ (Rect.block (s := S1024x256) S256x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x25x256.size a ≤ S1024x25x256.size a
  hwx2_1 : ∀ i : grid2.Coords, EltTy.bits .f32 = 32 ∨ (Rect.block (s := S1024x25x256) S256x25x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x41.size a ≤ S256x41.size a
  hwx2_2 : ∀ i : grid2.Coords, EltTy.bits .f32 = 32 ∨ (Rect.block (s := S256x41) S256x41.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x41.size a ≤ S256x41.size a
  hwx2_3 : ∀ i : grid2.Coords, EltTy.bits .f32 = 32 ∨ (Rect.block (s := S256x41) S256x41.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x41.size a ≤ S1024x41.size a
  hwx2_4 : ∀ i : grid2.Coords, EltTy.bits .f32 = 32 ∨ (Rect.block (s := S1024x41) S256x41.size (cc2_transform_4 i) (hinb2_4 i)).WholeWords (EltTy.packing .f32)

variable [Facts₀]

def dot_S256x602_S602x256_S256x256_1_0_0_1_n_n : DotDims S256x602 S602x256 S256x256 where
  lhsContracting := [1]
  rhsContracting := [0]
  lhsNonContracting := [0]
  rhsNonContracting := [1]
  lhsBatch := []
  rhsBatch := []
  wf := dot_S256x602_S602x256_S256x256_1_0_0_1_n_n_wf
def dot_S256x256_S256x41_S256x41_1_0_0_1_n_n : DotDims S256x256 S256x41 S256x41 where
  lhsContracting := [1]
  rhsContracting := [0]
  lhsNonContracting := [0]
  rhsNonContracting := [1]
  lhsBatch := []
  rhsBatch := []
  wf := dot_S256x256_S256x41_S256x41_1_0_0_1_n_n_wf

abbrev win0_0 : Pipeline.Window sig grid0 :=
  Pipeline.Window.ofSpec (Memref.whole main_arg0) S256x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x25x602.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S602x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S602x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S256x602.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x10x602.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S602x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S602x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S256x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S256x25x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x41.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S256x41.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S256x41.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1024x602 : Shape := ⟨2, ![1024, 602]⟩
abbrev S25600x602 : Shape := ⟨2, ![25600, 602]⟩
abbrev S256000x602 : Shape := ⟨2, ![256000, 602]⟩
abbrev S1204x256 : Shape := ⟨2, ![1204, 256]⟩
abbrev S512x41 : Shape := ⟨2, ![512, 41]⟩
abbrev S1024x25x602 : Shape := ⟨3, ![1024, 25, 602]⟩
abbrev S_ : Shape := ⟨0, ![]⟩
abbrev S1024x1204 : Shape := ⟨2, ![1024, 1204]⟩
abbrev S1024x256 : Shape := ⟨2, ![1024, 256]⟩
abbrev S25600x10x602 : Shape := ⟨3, ![25600, 10, 602]⟩
abbrev S25600x1204 : Shape := ⟨2, ![25600, 1204]⟩
abbrev S25600x256 : Shape := ⟨2, ![25600, 256]⟩
abbrev S1024x25x256 : Shape := ⟨3, ![1024, 25, 256]⟩
abbrev S1024x512 : Shape := ⟨2, ![1024, 512]⟩
abbrev S1024x41 : Shape := ⟨2, ![1024, 41]⟩
abbrev S1024 : Shape := ⟨1, ![1024]⟩
abbrev S1024x1 : Shape := ⟨2, ![1024, 1]⟩

abbrev nBuf : Space → Nat
  | .hbm => 50
  | .vmem => 0
  | .smem => 0
  | _ => 0

abbrev bufTy : (tb : Table) → Fin (tcTables nBuf tb) → BufTy
  | .hbm, ⟨0, _⟩ => ⟨S1024x602, .f32⟩
  | .hbm, ⟨1, _⟩ => ⟨S25600x602, .f32⟩
  | .hbm, ⟨2, _⟩ => ⟨S256000x602, .f32⟩
  | .hbm, ⟨3, _⟩ => ⟨S1204x256, .f32⟩
  | .hbm, ⟨4, _⟩ => ⟨S512x41, .f32⟩
  | .hbm, ⟨5, _⟩ => ⟨S1024x25x602, .f32⟩
  | .hbm, ⟨6, _⟩ => ⟨S_, .f32⟩
  | .hbm, ⟨7, _⟩ => ⟨S1024x602, .f32⟩
  | .hbm, ⟨8, _⟩ => ⟨S_, .f32⟩
  | .hbm, ⟨9, _⟩ => ⟨S1024x602, .f32⟩
  | .hbm, ⟨10, _⟩ => ⟨S1024x602, .f32⟩
  | .hbm, ⟨11, _⟩ => ⟨S1024x1204, .f32⟩
  | .hbm, ⟨12, _⟩ => ⟨S1024x256, .f32⟩
  | .hbm, ⟨13, _⟩ => ⟨S25600x10x602, .f32⟩
  | .hbm, ⟨14, _⟩ => ⟨S_, .f32⟩
  | .hbm, ⟨15, _⟩ => ⟨S25600x602, .f32⟩
  | .hbm, ⟨16, _⟩ => ⟨S_, .f32⟩
  | .hbm, ⟨17, _⟩ => ⟨S25600x602, .f32⟩
  | .hbm, ⟨18, _⟩ => ⟨S25600x602, .f32⟩
  | .hbm, ⟨19, _⟩ => ⟨S25600x1204, .f32⟩
  | .hbm, ⟨20, _⟩ => ⟨S25600x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S25600x256, .f32⟩
  | .hbm, ⟨26, _⟩ => ⟨S25600x256, .f32⟩
  | .hbm, ⟨27, _⟩ => ⟨S1024x25x256, .f32⟩
  | .hbm, ⟨28, _⟩ => ⟨S_, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x512, .f32⟩
  | .hbm, ⟨34, _⟩ => ⟨S1024x41, .f32⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024x1, .f32⟩
  | .hbm, ⟨41, _⟩ => ⟨S1024x41, .f32⟩
  | .hbm, ⟨42, _⟩ => ⟨S1024x41, .f32⟩
  | .hbm, ⟨43, _⟩ => ⟨S1024x41, .f32⟩
  | .hbm, ⟨44, _⟩ => ⟨S_, .f32⟩
  | .hbm, ⟨45, _⟩ => ⟨S1024, .f32⟩
  | .hbm, ⟨46, _⟩ => ⟨S1024x1, .f32⟩
  | .hbm, ⟨47, _⟩ => ⟨S1024x1, .f32⟩
  | .hbm, ⟨48, _⟩ => ⟨S1024x41, .f32⟩
  | .hbm, ⟨49, _⟩ => ⟨S1024x41, .f32⟩
  | _, _ => ⟨S1024x602, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call2_cst : Ref sig .tc := ⟨.hbm, 35, rfl⟩
abbrev main_call2_v0 : Ref sig .tc := ⟨.hbm, 36, rfl⟩
abbrev main_call2_cst_0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_cst_1 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_v20 : Ref sig .tc := ⟨.hbm, 49, rfl⟩

abbrev nD : Nat := 1
abbrev τ : Topo := Topo.v7x

variable {F : FTy → Type} [FloatOps F]

class Facts₀ : Prop where
  shapeCasts_S25600x602_S1024x25x602 : S25600x602.ShapeCasts S1024x25x602
  reducesTo_S1024x25x602_S1024x602_d1 : S1024x25x602.ReducesTo [1] S1024x602
  h_S_ : 0 < S_.numel
  bcast_S_S1024x602 : S_.BroadcastsInDim S1024x602 (![] : Fin 0 → Fin S1024x602.rank)
  concatenates_S1024x602_S1024x602_S1024x1204_d1 : Shape.Concatenates [S1024x602, S1024x602] S1024x1204 1
  shapeCasts_S256000x602_S25600x10x602 : S256000x602.ShapeCasts S25600x10x602
  reducesTo_S25600x10x602_S25600x602_d1 : S25600x10x602.ReducesTo [1] S25600x602
  bcast_S_S25600x602 : S_.BroadcastsInDim S25600x602 (![] : Fin 0 → Fin S25600x602.rank)
  concatenates_S25600x602_S25600x602_S25600x1204_d1 : Shape.Concatenates [S25600x602, S25600x602] S25600x1204 1
  bcast_S_S1024x256 : S_.BroadcastsInDim S1024x256 (![] : Fin 0 → Fin S1024x256.rank)
  bcast_S_S25600x256 : S_.BroadcastsInDim S25600x256 (![] : Fin 0 → Fin S25600x256.rank)
  shapeCasts_S25600x256_S1024x25x256 : S25600x256.ShapeCasts S1024x25x256
  reducesTo_S1024x25x256_S1024x256_d1 : S1024x25x256.ReducesTo [1] S1024x256
  concatenates_S1024x256_S1024x256_S1024x512_d1 : Shape.Concatenates [S1024x256, S1024x256] S1024x512 1
  reducesTo_S1024x41_S1024_d1 : S1024x41.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x41_0_1 : S1024x1.BroadcastsInDim S1024x41 (![0, 1] : Fin 2 → Fin S1024x41.rank)
  dot_S1024x1204_S1204x256_S1024x256_1_0_0_1_n_n_wf : DotDims.WF S1024x1204 S1204x256 S1024x256 [1] [0] [0] [1] [] []
  dot_S25600x1204_S1204x256_S25600x256_1_0_0_1_n_n_wf : DotDims.WF S25600x1204 S1204x256 S25600x256 [1] [0] [0] [1] [] []
  dot_S1024x512_S512x41_S1024x41_1_0_0_1_n_n_wf : DotDims.WF S1024x512 S512x41 S1024x41 [1] [0] [0] [1] [] []

variable [Facts₀]

def dot_S1024x1204_S1204x256_S1024x256_1_0_0_1_n_n : DotDims S1024x1204 S1204x256 S1024x256 where
  lhsContracting := [1]
  rhsContracting := [0]
  lhsNonContracting := [0]
  rhsNonContracting := [1]
  lhsBatch := []
  rhsBatch := []
  wf := dot_S1024x1204_S1204x256_S1024x256_1_0_0_1_n_n_wf
def dot_S25600x1204_S1204x256_S25600x256_1_0_0_1_n_n : DotDims S25600x1204 S1204x256 S25600x256 where
  lhsContracting := [1]
  rhsContracting := [0]
  lhsNonContracting := [0]
  rhsNonContracting := [1]
  lhsBatch := []
  rhsBatch := []
  wf := dot_S25600x1204_S1204x256_S25600x256_1_0_0_1_n_n_wf
def dot_S1024x512_S512x41_S1024x41_1_0_0_1_n_n : DotDims S1024x512 S512x41 S1024x41 where
  lhsContracting := [1]
  rhsContracting := [0]
  lhsNonContracting := [0]
  rhsNonContracting := [1]
  lhsBatch := []
  rhsBatch := []
  wf := dot_S1024x512_S512x41_S1024x41_1_0_0_1_n_n_wf

class Facts : Prop extends Facts₀ where

variable [Facts]
-- ==== Proof.Spec.lean ====
/-
  The mathematics of this certificate, with no program in it.

  A graph layer with mean aggregation: node `i` has its own feature row and `K` neighbour rows; the layer's linear part is
      lin i j  =  Σ_d self[i,d] · Wtop[d,j]  +  Σ_d ( (Σ_k neigh[i,k,d]) / K ) · Wbot[d,j],
  where `Wtop` and `Wbot` are the upper and lower halves of one weight matrix `W` (`rows`): multiplying the row
  `[self_i , mean_i]` of the concatenated features by `W` is this sum, because a sum over the `2·D` joined columns splits into
  the sum over the first `D` and the sum over the last `D` (`sum_halves`; only commutativity and associativity of `+` on the
  extended reals, so no finiteness is asked of any input).
  The network is two such layers: the first, followed by `relu`, is applied to (x0 ; x1 grouped by 25) and to
  (x1 ; x2 grouped by 10) with the same weights; the second is applied to the two results (the second regrouped by 25) and is
  followed by a row-wise log-softmax: `z − mx − log Σ_j exp (z_j − mx)` with `mx` the row's maximum.
  Floating-point words (25.0, 10.0, 0.0, −∞) are kept as the words both programs print; none is ever evaluated.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The divisor of the 25-neighbour mean, as printed. -/
abbrev w25 : EReal := Ideal.ofBits .f32 0x41C80000#32
/-- The divisor of the 10-neighbour mean, as printed. -/
abbrev w10 : EReal := Ideal.ofBits .f32 0x41200000#32
/-- The threshold of `relu`, as printed. -/
abbrev wzero : EReal := Ideal.ofBits .f32 0x00000000#32
/-- The starting value of a row maximum, as printed. -/
abbrev wninf : EReal := Ideal.ofBits .f32 0xFF800000#32

/-- The linear part of one layer on `N` nodes with `K` neighbours each, `D` features in and `O` out: node `i`'s own row against
    the top weights plus the mean (sum over the `K` neighbours, divided by `cK`) of its neighbours' rows against the bottom weights. -/
def lin {N K D O : Nat} (cK : EReal) (self : FVec Ideal ⟨2, ![N, D]⟩ .f32) (neigh : FVec Ideal ⟨3, ![N, K, D]⟩ .f32)
    (wt wb : FVec Ideal ⟨2, ![D, O]⟩ .f32) : FVec Ideal ⟨2, ![N, O]⟩ .f32 := fun i =>
  (∑ d : Fin D, self (ix2 (i 0) d) * wt (ix2 d (i 1)))
    + ∑ d : Fin D, Ideal.div (∑ k : Fin K, neigh (ix3 (i 0) k d)) cK * wb (ix2 d (i 1))

/-- `max · 0`, entry by entry. -/
def relu {s : Shape} (z : FVec Ideal s .f32) : FVec Ideal s .f32 := fun i => max (z i) wzero

/-- The maximum of row `p`, started from −∞ twice as both programs do. -/
def rowMax {N O : Nat} (z : FVec Ideal ⟨2, ![N, O]⟩ .f32) (p : Fin N) : EReal :=
  max wninf ((Finset.univ : Finset (Fin O)).fold max wninf fun j => z (ix2 p j))

/-- Row-wise log-softmax: the entry less the row's maximum, less the logarithm of the row's sum of exponentials of such differences. -/
def logSoftmax {N O : Nat} (z : FVec Ideal ⟨2, ![N, O]⟩ .f32) : FVec Ideal ⟨2, ![N, O]⟩ .f32 := fun i =>
  (z i - rowMax z (i 0)) - Ideal.log (∑ j : Fin O, Ideal.exp (z (ix2 (i 0) j) - rowMax z (i 0)))

/-- The `D` rows of `W` from row `off` on. -/
def rows {R O : Nat} (D off : Nat) (h : off + D ≤ R) (W : FVec Ideal ⟨2, ![R, O]⟩ .f32) : FVec Ideal ⟨2, ![D, O]⟩ .f32 := fun j =>
  W (ix2 (⟨off + (j 0).val, by have hj : (j 0).val < D := (j 0).isLt; omega⟩ : Fin R) (j 1))

/-- A sum over `D + D` joined columns is the sum over the first `D` plus the sum over the last `D`. -/
theorem sum_halves {D : Nat} (f : Fin (D + D) → EReal) :
    ∑ k : Fin (D + D), f k = (∑ d : Fin D, f (Fin.castAdd D d)) + ∑ d : Fin D, f (Fin.natAdd D d) :=
  Fin.sum_univ_add f

/-- The whole network as one function of the five argument arrays (the three regroupings are row-major reshapes, whose
    shape facts each program supplies). -/
def net (h1 : Shape.ShapeCasts ⟨2, ![25600, 602]⟩ ⟨3, ![1024, 25, 602]⟩)
    (h2 : Shape.ShapeCasts ⟨2, ![256000, 602]⟩ ⟨3, ![25600, 10, 602]⟩)
    (h3 : Shape.ShapeCasts ⟨2, ![25600, 256]⟩ ⟨3, ![1024, 25, 256]⟩)
    (x0 : FVec Ideal ⟨2, ![1024, 602]⟩ .f32) (x1 : FVec Ideal ⟨2, ![25600, 602]⟩ .f32) (x2 : FVec Ideal ⟨2, ![256000, 602]⟩ .f32)
    (W0 : FVec Ideal ⟨2, ![1204, 256]⟩ .f32) (W1 : FVec Ideal ⟨2, ![512, 41]⟩ .f32) : FVec Ideal ⟨2, ![1024, 41]⟩ .f32 :=
  logSoftmax (lin w25
    (relu (lin w25 x0 (shapeCast _ x1 h1) (rows 602 0 (by omega) W0) (rows 602 602 (by omega) W0)))
    (shapeCast _ (relu (lin w10 x1 (shapeCast _ x2 h2) (rows 602 0 (by omega) W0) (rows 602 602 (by omega) W0))) h3)
    (rows 256 0 (by omega) W1) (rows 256 256 (by omega) W1))

end Cert.Sage

end
-- ==== Proof.RefNet.lean ====
/-
  The reference program's result is the network `Sage.net` of its five arguments.

  The reference computes each layer as ONE product: the rows `[self , mean]` joined along the columns, against the whole weight
  matrix. A sum over the `D + D` joined columns splits into the sum over the first `D` and the sum over the last `D`
  (`Sage.sum_halves`); on the first half the joined row reads the node's own row and the weights' top half, on the second half
  it reads the mean row and the weights' bottom half (`catdot`). The mean is a sum started from the zero word (which is the
  extended real 0) divided by the broadcast divisor word, kept as the word. That gives the three layer equations
  (`layer_A`, `layer_B`, `layer_C`), each proved entry by entry at an index (p, q).
  The tail is a row-wise log-softmax (`tail_eq`): the row maximum is the fold of `max` from −∞ over the row's 41 columns, joined
  once more with −∞ in the specification's order; the two column broadcasts [1024] → [1024, 1] → [1024, 41] read row `p`; the
  row sum of exponentials is started from the zero word; and the host's division, exponential and logarithm at the extended
  reals are the same exact operations the specification names.
-/
import proofs.«126709_j52664888983659_1_alg».proof.Proof.RefRead
import proofs.«126709_j52664888983659_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Net

open Idealize.ShloMosaic Idealize.ShloMosaic.TcCoe Idealize.SL.Sem Idealize.ShloMosaic.ValueIdx Cert.ReferenceIdeal Cert.ReferenceIdeal.Gen
open Cert.ReferenceIdeal.ReadP

/-! ## A product with joined columns -/

/-- A row of two arrays joined along the columns, against a weight matrix with twice the rows: the first array's row against
    the top half of the weights plus the second array's row against the bottom half. -/
theorem catdot {N D O : Nat} (x y : FVec Ideal ⟨2, ![N, D]⟩ .f32) (W : FVec Ideal ⟨2, ![D + D, O]⟩ .f32)
    (h : Shape.Concatenates [(⟨2, ![N, D]⟩ : Shape), ⟨2, ![N, D]⟩] ⟨2, ![N, D + D]⟩ 1) (p : Fin N) (q : Fin O) :
    ∑ k : Fin (D + D), concatenate (⟨2, ![N, D + D]⟩ : Shape) 1 [⟨⟨2, ![N, D]⟩, x⟩, ⟨⟨2, ![N, D]⟩, y⟩] h (ix2 p k) * W (ix2 k q)
      = (∑ d : Fin D, x (ix2 p d) * Sage.rows D 0 (by omega) W (ix2 d q))
        + ∑ d : Fin D, y (ix2 p d) * Sage.rows D D (by omega) W (ix2 d q) := by
  rw [Sage.sum_halves]
  congr 1
  · refine Finset.sum_congr rfl fun d _ => ?_
    rw [concatenate_pair_apply_left (t := ⟨2, ![N, D + D]⟩) 1 x y h (ix2 p (Fin.castAdd D d)) rfl (ix2 p d)
      (fun b => by match b with | ⟨0, _⟩ => rfl | ⟨1, _⟩ => rfl)]
    refine congrArg (_ * ·) (congrArg W ?_)
    funext a; apply Fin.ext
    match a with
    | ⟨0, _⟩ => show d.val = 0 + d.val; omega
    | ⟨1, _⟩ => rfl
  · refine Finset.sum_congr rfl fun d _ => ?_
    rw [concatenate_pair_apply_right (t := ⟨2, ![N, D + D]⟩) 1 x y h (ix2 p (Fin.natAdd D d)) rfl rfl (ix2 p d)
      (fun b => by match b with | ⟨0, _⟩ => exact fun _ => rfl | ⟨1, _⟩ => exact fun hne => absurd rfl hne)
      (by show d.val + D = D + d.val; omega)]
    refine congrArg (_ * ·) (congrArg W ?_)
    funext a; apply Fin.ext
    match a with
    | ⟨0, _⟩ => rfl
    | ⟨1, _⟩ => rfl

/-! ## The first layer on the 1024 nodes -/

/-- The mean of a node's 25 neighbour rows, as the reference computes it (a sum started from the zero word, divided by the
    broadcast word 25.0). -/
theorem mean_A (x1 : FVec Ideal S25600x602 .f32) (p : Fin 1024) (d : Fin 602) :
    val_main_v3 (F := Ideal) x1 (ix2 p d)
      = Ideal.div (∑ k : Fin 25, val_main_v0 (F := Ideal) x1 (ix3 p k d)) Sage.w25 := by
  rw [val_main_v3_apply, val_main_v1_apply, val_main_v2_apply, val_main_cst_0_apply, val_main_cst_apply]
  show Ideal.div (Ideal.ofBits .f32 0x00000000#32 + _) Sage.w25 = _
  rw [Ideal.ofBits_zero_f32, zero_add]
  refine congrArg (fun s => Ideal.div s Sage.w25) (Finset.sum_congr rfl fun k _ => ?_)
  exact congrArg (val_main_v0 (F := Ideal) x1)
    (funext fun a => Fin.ext (by match a with | ⟨0, _⟩ => rfl | ⟨1, _⟩ => rfl | ⟨2, _⟩ => rfl))

/-- Where the first product reads its left operand: row `p`, column `k`. -/
theorem lidx_A (p : Fin 1024) (q : Fin 256) (k : Fin 1204) : lidx_main_v5 (ix2 p q) k = ix2 p k :=
  funext fun a => Fin.ext (by match a with | ⟨0, _⟩ => rfl | ⟨1, _⟩ => rfl)
/-- Where it reads the weights: row `k`, column `q`. -/
theorem ridx_A (p : Fin 1024) (q : Fin 256) (k : Fin 1204) : ridx_main_v5 (ix2 p q) k = ix2 k q :=
  funext fun a => Fin.ext (by match a with | ⟨0, _⟩ => rfl | ⟨1, _⟩ => rfl)

/-- (A) The first layer on the 1024 nodes. -/
theorem layer_A (x0 : FVec Ideal S1024x602 .f32) (x1 : FVec Ideal S25600x602 .f32) (x3 : FVec Ideal S1204x256 .f32) :
    val_main_v12 (F := Ideal) x0 x1 x3
      = Sage.relu (Sage.lin Sage.w25 x0 (val_main_v0 (F := Ideal) x1) (Sage.rows 602 0 (by omega) x3) (Sage.rows 602 602 (by omega) x3)) := by
  funext i
  obtain ⟨p, q, rfl⟩ : ∃ (p : Fin 1024) (q : Fin 256), i = ix2 p q := ⟨i 0, i 1, eq_ix2 i⟩
  rw [val_main_v12_apply, val_main_v5_apply, val_main_call0_v0_apply, val_main_call0_cst_apply]
  show max _ Sage.wzero = max _ Sage.wzero
  refine congrArg (fun s => max s Sage.wzero) ?_
  have hs : (∑ k : Fin 1204, val_main_v4 (F := Ideal) x0 x1 (lidx_main_v5 (ix2 p q) k) * x3 (ridx_main_v5 (ix2 p q) k))
      = ∑ k : Fin (602 + 602), val_main_v4 (F := Ideal) x0 x1 (ix2 p k) * x3 (ix2 k q) :=
    Finset.sum_congr rfl fun k _ => by rw [lidx_A, ridx_A]
  rw [hs]
  unfold val_main_v4
  refine (catdot (N := 1024) (D := 602) (O := 256) x0 (val_main_v3 (F := Ideal) x1) x3
    concatenates_S1024x602_S1024x602_S1024x1204_d1 p q).trans ?_
  show _ = _ + _
  refine congrArg (_ + ·) (Finset.sum_congr rfl fun d _ => ?_)
  rw [mean_A]

/-! ## The first layer on the 25600 neighbours -/

/-- The mean of a neighbour's 10 neighbour rows, as the reference computes it (a sum started from the zero word, divided by the
    broadcast word 10.0). -/
theorem mean_B (x2 : FVec Ideal S256000x602 .f32) (p : Fin 25600) (d : Fin 602) :
    val_main_v9 (F := Ideal) x2 (ix2 p d)
      = Ideal.div (∑ k : Fin 10, val_main_v6 (F := Ideal) x2 (ix3 p k d)) Sage.w10 := by
  rw [val_main_v9_apply, val_main_v7_apply, val_main_v8_apply, val_main_cst_2_apply, val_main_cst_1_apply]
  show Ideal.div (Ideal.ofBits .f32 0x00000000#32 + _) Sage.w10 = _
  rw [Ideal.ofBits_zero_f32, zero_add]
  refine congrArg (fun s => Ideal.div s Sage.w10) (Finset.sum_congr rfl fun k _ => ?_)
  exact congrArg (val_main_v6 (F := Ideal) x2)
    (funext fun a => Fin.ext (by match a with | ⟨0, _⟩ => rfl | ⟨1, _⟩ => rfl | ⟨2, _⟩ => rfl))

/-- Where the second product reads its left operand: row `p`, column `k`. -/
theorem lidx_B (p : Fin 25600) (q : Fin 256) (k : Fin 1204) : lidx_main_v11 (ix2 p q) k = ix2 p k :=
  funext fun a => Fin.ext (by match a with | ⟨0, _⟩ => rfl | ⟨1, _⟩ => rfl)
/-- Where it reads the weights: row `k`, column `q`. -/
theorem ridx_B (p : Fin 25600) (q : Fin 256) (k : Fin 1204) : ridx_main_v11 (ix2 p q) k = ix2 k q :=
  funext fun a => Fin.ext (by match a with | ⟨0, _⟩ => rfl | ⟨1, _⟩ => rfl)

/-- (B) The first layer on the 25600 neighbours, with the same weights. -/
theorem layer_B (x1 : FVec Ideal S25600x602 .f32) (x2 : FVec Ideal S256000x602 .f32) (x3 : FVec Ideal S1204x256 .f32) :
    val_main_v13 (F := Ideal) x1 x2 x3
      = Sage.relu (Sage.lin Sage.w10 x1 (val_main_v6 (F := Ideal) x2) (Sage.rows 602 0 (by omega) x3) (Sage.rows 602 602 (by omega) x3)) := by
  funext i
  obtain ⟨p, q, rfl⟩ : ∃ (p : Fin 25600) (q : Fin 256), i = ix2 p q := ⟨i 0, i 1, eq_ix2 i⟩
  rw [val_main_v13_apply, val_main_v11_apply, val_main_call1_v0_apply, val_main_call1_cst_apply]
  show max _ Sage.wzero = max _ Sage.wzero
  refine congrArg (fun s => max s Sage.wzero) ?_
  have hs : (∑ k : Fin 1204, val_main_v10 (F := Ideal) x1 x2 (lidx_main_v11 (ix2 p q) k) * x3 (ridx_main_v11 (ix2 p q) k))
      = ∑ k : Fin (602 + 602), val_main_v10 (F := Ideal) x1 x2 (ix2 p k) * x3 (ix2 k q) :=
    Finset.sum_congr rfl fun k _ => by rw [lidx_B, ridx_B]
  rw [hs]
  unfold val_main_v10
  refine (catdot (N := 25600) (D := 602) (O := 256) x1 (val_main_v9 (F := Ideal) x2) x3
    concatenates_S25600x602_S25600x602_S25600x1204_d1 p q).trans ?_
  show _ = _ + _
  refine congrArg (_ + ·) (Finset.sum_congr rfl fun d _ => ?_)
  rw [mean_B]

/-! ## The second layer -/

/-- The mean of a node's 25 first-layer neighbour rows, as the reference computes it. -/
theorem mean_C (x1 : FVec Ideal S25600x602 .f32) (x2 : FVec Ideal S256000x602 .f32) (x3 : FVec Ideal S1204x256 .f32)
    (p : Fin 1024) (d : Fin 256) :
    val_main_v17 (F := Ideal) x1 x2 x3 (ix2 p d)
      = Ideal.div (∑ k : Fin 25, val_main_v14 (F := Ideal) x1 x2 x3 (ix3 p k d)) Sage.w25 := by
  rw [val_main_v17_apply, val_main_v15_apply, val_main_v16_apply, val_main_cst_4_apply, val_main_cst_3_apply]
  show Ideal.div (Ideal.ofBits .f32 0x00000000#32 + _) Sage.w25 = _
  rw [Ideal.ofBits_zero_f32, zero_add]
  refine congrArg (fun s => Ideal.div s Sage.w25) (Finset.sum_congr rfl fun k _ => ?_)
  exact congrArg (val_main_v14 (F := Ideal) x1 x2 x3)
    (funext fun a => Fin.ext (by match a with | ⟨0, _⟩ => rfl | ⟨1, _⟩ => rfl | ⟨2, _⟩ => rfl))

/-- Where the last product reads its left operand: row `p`, column `k`. -/
theorem lidx_C (p : Fin 1024) (q : Fin 41) (k : Fin 512) : lidx_main_v19 (ix2 p q) k = ix2 p k :=
  funext fun a => Fin.ext (by match a with | ⟨0, _⟩ => rfl | ⟨1, _⟩ => rfl)
/-- Where it reads the weights: row `k`, column `q`. -/
theorem ridx_C (p : Fin 1024) (q : Fin 41) (k : Fin 512) : ridx_main_v19 (ix2 p q) k = ix2 k q :=
  funext fun a => Fin.ext (by match a with | ⟨0, _⟩ => rfl | ⟨1, _⟩ => rfl)

/-- (C) The second layer's linear part, on the two first-layer results. -/
theorem layer_C (x0 : FVec Ideal S1024x602 .f32) (x1 : FVec Ideal S25600x602 .f32) (x2 : FVec Ideal S256000x602 .f32)
    (x3 : FVec Ideal S1204x256 .f32) (x4 : FVec Ideal S512x41 .f32) :
    val_main_v19 (F := Ideal) x0 x1 x2 x3 x4
      = Sage.lin Sage.w25 (val_main_v12 (F := Ideal) x0 x1 x3) (val_main_v14 (F := Ideal) x1 x2 x3)
          (Sage.rows 256 0 (by omega) x4) (Sage.rows 256 256 (by omega) x4) := by
  funext i
  obtain ⟨p, q, rfl⟩ : ∃ (p : Fin 1024) (q : Fin 41), i = ix2 p q := ⟨i 0, i 1, eq_ix2 i⟩
  rw [val_main_v19_apply]
  have hs : (∑ k : Fin 512, val_main_v18 (F := Ideal) x0 x1 x2 x3 (lidx_main_v19 (ix2 p q) k) * x4 (ridx_main_v19 (ix2 p q) k))
      = ∑ k : Fin (256 + 256), val_main_v18 (F := Ideal) x0 x1 x2 x3 (ix2 p k) * x4 (ix2 k q) :=
    Finset.sum_congr rfl fun k _ => by rw [lidx_C, ridx_C]
  rw [hs]
  unfold val_main_v18
  refine (catdot (N := 1024) (D := 256) (O := 41) (val_main_v12 (F := Ideal) x0 x1 x3) (val_main_v17 (F := Ideal) x1 x2 x3) x4
    concatenates_S1024x256_S1024x256_S1024x512_d1 p q).trans ?_
  show _ = _ + _
  refine congrArg (_ + ·) (Finset.sum_congr rfl fun d _ => ?_)
  rw [mean_C]

/-! ## The log-softmax tail -/

/-- The reduced row index `p` with column `k` put back is (p, k). -/
theorem lift_row41 (h : S1024x41.Reduces [1] S1024) (p : Fin 1024) (k : Fin 41) :
    h.lift (ix1 p) k = ix2 p k := by
  funext c; apply Fin.ext
  match c with
  | ⟨0, _⟩ => rfl
  | ⟨1, _⟩ => rfl

/-- From −∞ the host's reduce with a maximum body over a row's 41 columns is the fold of `max` over them. -/
theorem hostReduce_max_row41 (z : FVec Ideal S1024x41 .f32) (h' : S1024x41.ReducesTo [1] S1024) (hu : 0 < S_.numel) (p : Fin 1024) :
    Host.reduce FloatOps.maximumf z (constant (F := Ideal) S_ .f32 0xFF800000#32) h' hu (ix1 p)
      = (Finset.univ : Finset (Fin 41)).fold max Sage.wninf (fun j => z (ix2 p j)) := by
  have h : S1024x41.Reduces [1] S1024 := by decide
  rw [Host.reduce_eq_fold_single FloatOps.maximumf z _ h' h hu]
  have hf : (z ∘ h.lift (ix1 p)) = fun j : Fin 41 => z (ix2 p j) := funext fun k => congrArg z (lift_row41 h p k)
  exact congrArg (fun f => Finset.fold max Sage.wninf f (Finset.univ : Finset (Fin 41))) hf

/-- The reference's row maximum (−∞ joined once more with the fold from −∞) is the specification's. -/
theorem rowMax_eq (x0 : FVec Ideal S1024x602 .f32) (x1 : FVec Ideal S25600x602 .f32) (x2 : FVec Ideal S256000x602 .f32)
    (x3 : FVec Ideal S1204x256 .f32) (x4 : FVec Ideal S512x41 .f32) (p : Fin 1024) :
    val_main_call2_v2 (F := Ideal) x0 x1 x2 x3 x4 (ix1 p) = Sage.rowMax (val_main_v19 (F := Ideal) x0 x1 x2 x3 x4) p := by
  rw [val_main_call2_v2_apply, val_main_call2_v1_apply, val_main_call2_cst_0_apply]
  unfold val_main_call2_v0 val_main_call2_cst
  rw [hostReduce_max_row41]
  rfl

/-- Where the column broadcast [1024] → [1024, 1] → [1024, 41] reads the row vector: at the row. -/
theorem idx_bcast_row (p : Fin 1024) (q : Fin 41) : idx_main_call2_v3 (idx_main_call2_v4 (ix2 p q)) = ix1 p :=
  funext fun a => Fin.ext (by match a with | ⟨0, _⟩ => rfl)

/-- The same for the second column broadcast, composed with the row sum's index: column `k` of the row. -/
theorem idx_sum_row (p : Fin 1024) (q k : Fin 41) :
    idx_main_call2_v7 (idx_main_call2_v8 (idx_main_call2_v10 (ix2 p q))) k = ix2 p k :=
  funext fun a => Fin.ext (by match a with | ⟨0, _⟩ => rfl | ⟨1, _⟩ => rfl)

/-- The difference the tail exponentiates: the entry less its row's maximum. -/
theorem shifted_eq (x0 : FVec Ideal S1024x602 .f32) (x1 : FVec Ideal S25600x602 .f32) (x2 : FVec Ideal S256000x602 .f32)
    (x3 : FVec Ideal S1204x256 .f32) (x4 : FVec Ideal S512x41 .f32) (p : Fin 1024) (q : Fin 41) :
    val_main_call2_v5 (F := Ideal) x0 x1 x2 x3 x4 (ix2 p q)
      = val_main_v19 (F := Ideal) x0 x1 x2 x3 x4 (ix2 p q) - Sage.rowMax (val_main_v19 (F := Ideal) x0 x1 x2 x3 x4) p := by
  rw [val_main_call2_v5_apply, val_main_call2_v4_apply, val_main_call2_v3_apply, idx_bcast_row, rowMax_eq]
  rfl

/-- The reference's last eleven operations are the row-wise log-softmax of the second layer's output. -/
theorem tail_eq (x0 : FVec Ideal S1024x602 .f32) (x1 : FVec Ideal S25600x602 .f32) (x2 : FVec Ideal S256000x602 .f32)
    (x3 : FVec Ideal S1204x256 .f32) (x4 : FVec Ideal S512x41 .f32) :
    val_main_v20 (F := Ideal) x0 x1 x2 x3 x4 = Sage.logSoftmax (val_main_v19 (F := Ideal) x0 x1 x2 x3 x4) := by
  funext i
  obtain ⟨p, q, rfl⟩ : ∃ (p : Fin 1024) (q : Fin 41), i = ix2 p q := ⟨i 0, i 1, eq_ix2 i⟩
  rw [val_main_v20_apply, shifted_eq, val_main_call2_v10_apply, val_main_call2_v9_apply, val_main_call2_v8_apply,
    val_main_call2_v7_apply, val_main_call2_cst_1_apply]
  have hs : (∑ k : Fin 41, val_main_call2_v6 (F := Ideal) x0 x1 x2 x3 x4
        (idx_main_call2_v7 (idx_main_call2_v8 (idx_main_call2_v10 (ix2 p q))) k))
      = ∑ j : Fin 41, Ideal.exp (val_main_v19 (F := Ideal) x0 x1 x2 x3 x4 (ix2 p j)
          - Sage.rowMax (val_main_v19 (F := Ideal) x0 x1 x2 x3 x4) p) :=
    Finset.sum_congr rfl fun k _ => by
      rw [idx_sum_row, val_main_call2_v6_apply, shifted_eq]; rfl
  rw [hs]
  show (_ - _) - Ideal.log (Ideal.ofBits .f32 0x00000000#32 + _) = _
  rw [Ideal.ofBits_zero_f32, zero_add]
  rfl

/-! ## The whole reference -/

/-- The reference's last stage, as a function of the five argument arrays, is the network. -/
theorem val_eq_net (x0 : FVec Ideal S1024x602 .f32) (x1 : FVec Ideal S25600x602 .f32) (x2 : FVec Ideal S256000x602 .f32)
    (x3 : FVec Ideal S1204x256 .f32) (x4 : FVec Ideal S512x41 .f32) :
    Cert.ReferenceIdeal.ReadP.val_main_v20 (F := Ideal) x0 x1 x2 x3 x4
      = Sage.net shapeCasts_S25600x602_S1024x25x602 shapeCasts_S256000x602_S25600x10x602 shapeCasts_S25600x256_S1024x25x256 x0 x1 x2 x3 x4 := by
  rw [tail_eq, layer_C, layer_A]
  unfold val_main_v14
  rw [layer_B]
  rfl

end Cert.ReferenceIdeal.Net

end
-- ==== Proof.SpecBlocks.lean ====
/-
  Rows of the layer functions. A kernel call works on a block of `n` consecutive nodes (rows `r0 … r0 + n − 1` of the `N`); every
  function of `Spec.lean` treats a node's row by itself — `lin` reads only row `i` of the node arrays and all of the weights, `relu`
  is entry-wise, `logSoftmax` normalises within a row — so the function of the block's rows is the block of rows of the function
  of the whole arrays. Index relations are stated through the coordinates' values, so that they can be met from any description
  of a block.
-/
import proofs.«126709_j52664888983659_1_alg».proof.Proof.Spec

noncomputable section

namespace Cert.Sage

open Idealize.ShloMosaic Idealize.ShloMosaic.ValueIdx

/-- The linear part at row `j 0` of a block whose node rows are rows `r0 + ·` of the whole node arrays (`h0`, `h1`), with the same
    weights, is the linear part of the whole arrays at row `r0 + j 0`. -/
theorem lin_rows {N K D O n : Nat} (cK : EReal)
    (A0 : FVec Ideal ⟨2, ![N, D]⟩ .f32) (A1 : FVec Ideal ⟨3, ![N, K, D]⟩ .f32) (wt wb : FVec Ideal ⟨2, ![D, O]⟩ .f32)
    (b0 : FVec Ideal ⟨2, ![n, D]⟩ .f32) (b1 : FVec Ideal ⟨3, ![n, K, D]⟩ .f32) (bt bb : FVec Ideal ⟨2, ![D, O]⟩ .f32) (r0 : Nat)
    (h0 : ∀ (y : (⟨2, ![n, D]⟩ : Shape).Idx) (z : (⟨2, ![N, D]⟩ : Shape).Idx),
      (z 0).val = r0 + (y 0).val → (z 1).val = (y 1).val → b0 y = A0 z)
    (h1 : ∀ (y : (⟨3, ![n, K, D]⟩ : Shape).Idx) (z : (⟨3, ![N, K, D]⟩ : Shape).Idx),
      (z 0).val = r0 + (y 0).val → (z 1).val = (y 1).val → (z 2).val = (y 2).val → b1 y = A1 z)
    (ht : bt = wt) (hb : bb = wb)
    (j : (⟨2, ![n, O]⟩ : Shape).Idx) (i : (⟨2, ![N, O]⟩ : Shape).Idx)
    (hi0 : (i 0).val = r0 + (j 0).val) (hi1 : (i 1).val = (j 1).val) :
    lin cK b0 b1 bt bb j = lin cK A0 A1 wt wb i := by
  subst ht hb
  have e1 : ∀ d : Fin D, ix2 d (j 1) = ix2 d (i 1) := fun d => congrArg (ix2 d) (Fin.ext hi1.symm)
  unfold lin
  refine congrArg₂ (· + ·) (Finset.sum_congr rfl fun d _ => ?_) (Finset.sum_congr rfl fun d _ => ?_)
  · exact congrArg₂ (· * ·) (h0 (ix2 (j 0) d) (ix2 (i 0) d) hi0 rfl) (congrArg bt (e1 d))
  · exact congrArg₂ (· * ·)
      (congrArg (Ideal.div · cK) (Finset.sum_congr rfl fun k _ => h1 (ix3 (j 0) k d) (ix3 (i 0) k d) hi0 rfl rfl))
      (congrArg bb (e1 d))

/-- `relu` is entry-wise. -/
theorem relu_congr {s s' : Shape} (z : FVec Ideal s .f32) (z' : FVec Ideal s' .f32) (j : s.Idx) (i : s'.Idx) (h : z j = z' i) :
    relu z j = relu z' i := by
  unfold relu; exact congrArg (max · wzero) h

/-- The log-softmax at row `j 0` of a block of rows of `z` is the log-softmax of `z` at row `r0 + j 0`: a row's maximum and its sum
    of exponentials read only that row. -/
theorem logSoftmax_rows {N O n : Nat} (zb : FVec Ideal ⟨2, ![n, O]⟩ .f32) (z : FVec Ideal ⟨2, ![N, O]⟩ .f32) (r0 : Nat)
    (hz : ∀ (y : (⟨2, ![n, O]⟩ : Shape).Idx) (y' : (⟨2, ![N, O]⟩ : Shape).Idx),
      (y' 0).val = r0 + (y 0).val → (y' 1).val = (y 1).val → zb y = z y')
    (j : (⟨2, ![n, O]⟩ : Shape).Idx) (i : (⟨2, ![N, O]⟩ : Shape).Idx)
    (hi0 : (i 0).val = r0 + (j 0).val) (hi1 : (i 1).val = (j 1).val) :
    logSoftmax zb j = logSoftmax z i := by
  have hrow : ∀ q : Fin O, zb (ix2 (j 0) q) = z (ix2 (i 0) q) := fun q => hz _ _ hi0 rfl
  have hmax : rowMax zb (j 0) = rowMax z (i 0) := by
    unfold rowMax
    exact congrArg (max wninf) (congrArg (Finset.univ.fold max wninf) (funext hrow))
  unfold logSoftmax
  exact congrArg₂ (· - ·) (congrArg₂ (· - ·) (hz j i hi0 hi1) hmax)
    (congrArg Ideal.log (Finset.sum_congr rfl fun q _ => congrArg Ideal.exp (congrArg₂ (· - ·) (hrow q) hmax)))

end Cert.Sage

end
-- ==== Proof.BodyFirst.lean ====
/-
  The first layer's kernel body on one block of 256 nodes with 25 neighbours each: what it stores is `relu` of the layer's linear part of the block's rows.
-/
import proofs.«126709_j52664888983659_1_alg».proof.Proof.Gen.KernelIdeal.Skeleton
import proofs.«126709_j52664888983659_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Idealize.ShloMosaic Idealize.ShloMosaic.ValueIdx Cert.KernelIdeal Cert.KernelIdeal.Gen

/-! ## The operand indices of the 256×602 by 602×256 product

At output index (p, q) and contraction coordinate d the left operand is read at (p, d) and the right one at (d, q): one
statement per operand axis. -/

/-- The left operand's row is the output's row. -/
theorem first_lhs_0 (i : S256x256.Idx) (q : dot_S256x602_S602x256_S256x256_1_0_0_1_n_n.contr.Idx) :
    (dot_S256x602_S602x256_S256x256_1_0_0_1_n_n.lhsIdx i q 0).val = (i 0).val := by
  unfold DotDims.lhsIdx
  rw [dif_neg (show ¬(0 : Fin S256x602.rank) ∈ dot_S256x602_S602x256_S256x256_1_0_0_1_n_n.lhsBatch by decide), dif_pos (show (0 : Fin S256x602.rank) ∈ dot_S256x602_S602x256_S256x256_1_0_0_1_n_n.lhsNonContracting by decide)]
  rfl
/-- The left operand's column is the contraction coordinate. -/
theorem first_lhs_1 (i : S256x256.Idx) (q : dot_S256x602_S602x256_S256x256_1_0_0_1_n_n.contr.Idx) :
    (dot_S256x602_S602x256_S256x256_1_0_0_1_n_n.lhsIdx i q 1).val = (q ⟨0, by decide⟩).val :=
  dot_S256x602_S602x256_S256x256_1_0_0_1_n_n.lhsIdx_val_of_single rfl i q
/-- The right operand's row is the contraction coordinate. -/
theorem first_rhs_0 (i : S256x256.Idx) (q : dot_S256x602_S602x256_S256x256_1_0_0_1_n_n.contr.Idx) :
    (dot_S256x602_S602x256_S256x256_1_0_0_1_n_n.rhsIdx i q 0).val = (q ⟨0, by decide⟩).val :=
  dot_S256x602_S602x256_S256x256_1_0_0_1_n_n.rhsIdx_val_of_single rfl i q
/-- The right operand's column is the output's column. -/
theorem first_rhs_1 (i : S256x256.Idx) (q : dot_S256x602_S602x256_S256x256_1_0_0_1_n_n.contr.Idx) :
    (dot_S256x602_S602x256_S256x256_1_0_0_1_n_n.rhsIdx i q 1).val = (i 1).val := by
  unfold DotDims.rhsIdx
  rw [dif_neg (show ¬(1 : Fin S602x256.rank) ∈ dot_S256x602_S602x256_S256x256_1_0_0_1_n_n.rhsBatch by decide), dif_pos (show (1 : Fin S602x256.rank) ∈ dot_S256x602_S602x256_S256x256_1_0_0_1_n_n.rhsNonContracting by decide)]
  rfl

/-- A matrix product accumulated into the zero block, read at (p, q): the sum over the 602 features of the products, the
    accumulator's word being the extended real 0. -/
theorem first_matmul_at {φ₁ φ₂ : FTy} (l : FVec Ideal S256x602 φ₁) (r : FVec Ideal S602x256 φ₂) (p q : Fin 256) :
    matmul dot_S256x602_S602x256_S256x256_1_0_0_1_n_n none l r (constant S256x256 .f32 0x00000000#32) (ix2 p q)
      = ∑ d : Fin 602, l (ix2 p d) * r (ix2 d q) := by
  show FloatOps.matmul dot_S256x602_S602x256_S256x256_1_0_0_1_n_n none l r (constant S256x256 .f32 0x00000000#32) (ix2 p q) = _
  rw [Ideal.matmul_constant_zero_apply, ← Equiv.sum_comp (ValueIdx.contrEquiv1 dot_S256x602_S602x256_S256x256_1_0_0_1_n_n 602 rfl rfl).symm]
  refine Finset.sum_congr rfl fun k _ => ?_
  have hk := ValueIdx.contrEquiv1_symm_val dot_S256x602_S602x256_S256x256_1_0_0_1_n_n 602 rfl rfl k
  have el : dot_S256x602_S602x256_S256x256_1_0_0_1_n_n.lhsIdx (ix2 p q) ((ValueIdx.contrEquiv1 dot_S256x602_S602x256_S256x256_1_0_0_1_n_n 602 rfl rfl).symm k) = ix2 p k := funext fun a => Fin.ext (by
    match a with
    | ⟨0, _⟩ => exact first_lhs_0 _ _
    | ⟨1, _⟩ => exact (first_lhs_1 _ _).trans hk)
  have er : dot_S256x602_S602x256_S256x256_1_0_0_1_n_n.rhsIdx (ix2 p q) ((ValueIdx.contrEquiv1 dot_S256x602_S602x256_S256x256_1_0_0_1_n_n 602 rfl rfl).symm k) = ix2 k q := funext fun a => Fin.ext (by
    match a with
    | ⟨0, _⟩ => exact (first_rhs_0 _ _).trans hk
    | ⟨1, _⟩ => exact first_rhs_1 _ _)
  rw [el, er]

/-- The sum over the neighbour axis, read at (p, d): the sum over the 25 neighbours k of the block at (p, k, d); the index
    with k put back on the dropped axis is (p, k, d), coordinate by coordinate. -/
theorem first_neighbourSum_at (x : FVec Ideal S256x25x602 .f32) (h : S256x25x602.Reduces [1] S256x602)
    (hφ : FKind.Formats .f32) (hacc : (0x00000000#32 : BitVec 32) = FKind.add.neutral .f32 hφ) (p : Fin 256) (d : Fin 602) :
    multiReduction .add [1] S256x602 x 0x00000000#32 h hφ hacc (ix2 p d) = ∑ k : Fin 25, x (ix3 p k d) := by
  have e : multiReduction .add [1] S256x602 x 0x00000000#32 h hφ hacc (ix2 p d) = ∑ k : Fin 25, x (h.lift (ix2 p d) k) :=
    Ideal.multiReduction_add_single x _ h hφ hacc (ix2 p d)
  refine e.trans (Finset.sum_congr rfl fun k _ => congrArg x ?_)
  exact funext fun a => Fin.ext (by
    match a with
    | ⟨0, _⟩ => rfl
    | ⟨1, _⟩ => rfl
    | ⟨2, _⟩ => rfl)

/-- The stored value of the first call's body, as a function of the four loaded blocks: rounding to bf16 is the identity on the
    extended reals, each matrix product into a zero accumulator is the plain sum over the 602 features, the neighbour sum
    over axis 1 divided by the printed 25.0 is the mean. -/
theorem first_eq (x0 : FVec Ideal S256x602 .f32) (x1 : FVec Ideal S256x25x602 .f32) (w1 w2 : FVec Ideal S602x256 .f32) :
    k0_pay1 (F := Ideal) x0 x1 w1 w2 = Sage.relu (Sage.lin Sage.w25 x0 x1 w1 w2) := by
  funext j
  obtain ⟨p, q, rfl⟩ : ∃ (p : Fin 256) (q : Fin 256), j = ix2 p q := ⟨j 0, j 1, eq_ix2 j⟩
  unfold k0_pay1
  show max (matmul dot_S256x602_S602x256_S256x256_1_0_0_1_n_n none (truncf .bf16 x0 _) (truncf .bf16 (shapeCast S602x256 w1 _) _) (constant S256x256 .f32 0x00000000#32) (ix2 p q)
          + matmul dot_S256x602_S602x256_S256x256_1_0_0_1_n_n none (truncf .bf16 (divf (multiReduction .add [1] S256x602 (shapeCast S256x25x602 x1 _) 0x00000000#32 _ (.inl rfl) rfl) (broadcast S256x602 (Scalar.ofBits .f32 0x41C80000#32))) _) (truncf .bf16 (shapeCast S602x256 w2 _) _) (constant S256x256 .f32 0x00000000#32) (ix2 p q))
        (Ideal.ofBits .f32 0x00000000#32)
      = max ((∑ d : Fin 602, x0 (ix2 p d) * w1 (ix2 d q)) + ∑ d : Fin 602, Ideal.div (∑ k : Fin 25, x1 (ix3 p k d)) Sage.w25 * w2 (ix2 d q)) Sage.wzero
  rw [first_matmul_at, first_matmul_at]
  refine congrArg₂ max (congrArg₂ (· + ·) (Finset.sum_congr rfl fun d _ => ?_) (Finset.sum_congr rfl fun d _ => ?_)) rfl
  · show x0 (ix2 p d) * shapeCast S602x256 w1 _ (ix2 d q) = _
    rw [shapeCast_self]
  · show Ideal.div (multiReduction .add [1] S256x602 (shapeCast S256x25x602 x1 _) 0x00000000#32 _ (.inl rfl) rfl (ix2 p d)) Sage.w25 * shapeCast S602x256 w2 _ (ix2 d q) = _
    rw [shapeCast_self, shapeCast_self]
    exact congrArg (fun t => Ideal.div t Sage.w25 * w2 (ix2 d q)) (first_neighbourSum_at x1 _ _ _ p d)

end Cert.KernelIdeal.Body

end
-- ==== Proof.BlocksFirst.lean ====
/-
  The first call (layer one on the 1024 seed nodes, 25 neighbours each): its output array after the call is `relu` of the layer's linear part of the arrays the call finds — the blocks of 256 rows that its four points write back tile the array, and each is that function of its own rows.
-/
import proofs.«126709_j52664888983659_1_alg».proof.Proof.Gen.KernelIdeal.Frame
import proofs.«126709_j52664888983659_1_alg».proof.Proof.Spec
import proofs.«126709_j52664888983659_1_alg».proof.Proof.SpecBlocks
import proofs.«126709_j52664888983659_1_alg».proof.Proof.BodyFirst
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem first_off2 : (![0, 0] : Fin 2 → Nat) = fun _ => 0 := funext fun a => by fin_cases a <;> rfl
theorem first_off3 : (![0, 0, 0] : Fin 3 → Nat) = fun _ => 0 := funext fun a => by fin_cases a <;> rfl

/-- The call's index maps, decided once over its grid: at point `t` the two node windows and the output window sit at block `t` of
    their first axis and block 0 of the others; the two weight windows are the whole weight arrays. -/
theorem first_idx : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of the nodes' own rows at point `t` is rows `256·t + ·` of the array. -/
theorem first_self (c : Dev nD) (t : Fin cfg0.N) (y : S256x602.Idx) (z : S1024x602.Idx)
    (h0 : (z 0).val = t.val * 256 + (y 0).val) (h1 : (z 1).val = (y 1).val) :
    iblk0 V c 0 t y = V c main_arg0 z := by
  obtain ⟨e0, e1, -⟩ := first_idx t
  show V c main_arg0 (((cfg0.win 0).blk t).view.emb y) = V c main_arg0 z
  refine congrArg _ (funext fun a => Fin.ext ?_)
  match a with
  | ⟨0, _⟩ => show win0_0.index t (0 : Fin 2) * 256 + 1 * (y 0).val = (z 0).val; omega
  | ⟨1, _⟩ => show win0_0.index t (1 : Fin 2) * 602 + 1 * (y 1).val = (z 1).val; omega

/-- The block of the neighbours' rows at point `t` is the neighbours of nodes `256·t + ·`. -/
theorem first_neigh (c : Dev nD) (t : Fin cfg0.N) (y : S256x25x602.Idx) (z : S1024x25x602.Idx)
    (h0 : (z 0).val = t.val * 256 + (y 0).val) (h1 : (z 1).val = (y 1).val) (h2 : (z 2).val = (y 2).val) :
    iblk0 V c 1 t y = V c main_v4 z := by
  obtain ⟨-, -, e0, e1, e2, -⟩ := first_idx t
  show V c main_v4 (((cfg0.win 1).blk t).view.emb y) = V c main_v4 z
  refine congrArg _ (funext fun a => Fin.ext ?_)
  match a with
  | ⟨0, _⟩ => show win0_1.index t (0 : Fin 3) * 256 + 1 * (y 0).val = (z 0).val; omega
  | ⟨1, _⟩ => show win0_1.index t (1 : Fin 3) * 25 + 1 * (y 1).val = (z 1).val; omega
  | ⟨2, _⟩ => show win0_1.index t (2 : Fin 3) * 602 + 1 * (y 2).val = (z 2).val; omega

/-- The top weights' block at every point is the whole array. -/
theorem first_top (c : Dev nD) (t : Fin cfg0.N) : iblk0 V c 2 t = V c main_v0 := by
  obtain ⟨-, -, -, -, -, e0, e1, -⟩ := first_idx t
  funext y
  show V c main_v0 (((cfg0.win 2).blk t).view.emb y) = V c main_v0 y
  refine congrArg _ (funext fun a => Fin.ext ?_)
  match a with
  | ⟨0, _⟩ => show win0_2.index t (0 : Fin 2) * 602 + 1 * (y 0).val = (y 0).val; omega
  | ⟨1, _⟩ => show win0_2.index t (1 : Fin 2) * 256 + 1 * (y 1).val = (y 1).val; omega

/-- The bottom weights' block at every point is the whole array. -/
theorem first_bot (c : Dev nD) (t : Fin cfg0.N) : iblk0 V c 3 t = V c main_v1 := by
  obtain ⟨-, -, -, -, -, -, -, e0, e1, -⟩ := first_idx t
  funext y
  show V c main_v1 (((cfg0.win 3).blk t).view.emb y) = V c main_v1 y
  refine congrArg _ (funext fun a => Fin.ext ?_)
  match a with
  | ⟨0, _⟩ => show win0_3.index t (0 : Fin 2) * 602 + 1 * (y 0).val = (y 0).val; omega
  | ⟨1, _⟩ => show win0_3.index t (1 : Fin 2) * 256 + 1 * (y 1).val = (y 1).val; omega

/-- What point `t` writes back is block `t` of the layer's function of the whole arrays as the call finds them: the body's
    stored value is the layer's function of the blocks, and a node's output row reads only that node's rows. -/
theorem first_flushed (c : Dev nD) (t : Fin cfg0.N) :
    (dat0 (F := Ideal) V c).flushed 4 t = ((cfg0.win 4).blk t).view.read (Elt Ideal)
      (Sage.relu (Sage.lin Sage.w25 (V c main_arg0) (V c main_v4) (V c main_v0) (V c main_v1))) := by
  show (cfg0.win 4).cut (grid0.coords t) ((dat0 V c).after 4 t) = _
  rw [after0_4]
  unfold out0_4
  rw [View.canon_unit_zero first_off2]
  simp only [View.ld_unit_zero (S := S256x602) first_off2, View.ld_unit_zero (S := S256x25x602) first_off3, View.ld_unit_zero (S := S602x256) first_off2]
  rw [Body.first_eq]
  obtain ⟨-, -, -, -, -, -, -, -, -, e0, e1⟩ := first_idx t
  funext j
  show Sage.relu (Sage.lin Sage.w25 (iblk0 V c 0 t) (iblk0 V c 1 t) (iblk0 V c 2 t) (iblk0 V c 3 t)) j
    = Sage.relu (Sage.lin Sage.w25 (V c main_arg0) (V c main_v4) (V c main_v0) (V c main_v1)) (((cfg0.win 4).blk t).view.emb j)
  have hj0 : ((((cfg0.win 4).blk t).view.emb j) 0).val = t.val * 256 + (j 0).val := by
    show win0_4.index t (0 : Fin 2) * 256 + 1 * (j 0).val = t.val * 256 + (j 0).val; omega
  have hj1 : ((((cfg0.win 4).blk t).view.emb j) 1).val = (j 1).val := by
    show win0_4.index t (1 : Fin 2) * 256 + 1 * (j 1).val = (j 1).val; omega
  exact Sage.relu_congr _ _ j _ (Sage.lin_rows Sage.w25 (V c main_arg0) (V c main_v4) (V c main_v0) (V c main_v1)
    (iblk0 V c 0 t) (iblk0 V c 1 t) (iblk0 V c 2 t) (iblk0 V c 3 t) (t.val * 256)
    (fun y z h0 h1 => first_self V c t y z h0 h1) (fun y z h0 h1 h2 => first_neigh V c t y z h0 h1 h2)
    (first_top V c t) (first_bot V c t) j _ hj0 hj1)

/-- An index of the output array is in point `t`'s block iff each coordinate is in the block's range on its axis. -/
theorem first_mem (t : Fin cfg0.N) (i : S1024x256.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v5).slice (win0_4.rect t)).set ↔ _
  rw [View.set_slice_whole, Rect.mem_set_unit]
  exact Iff.rfl

/-- Every index of the output array is in the block of the point that holds its row: row `r` is in block `r / 256`. -/
theorem first_cover (i : S1024x256.Idx) :
    ∃ t : Fin cfg0.N, (cfg0.win 4).flush t = true ∧ i ∈ ((cfg0.win 4).blk t).view.set := by
  have hi0 : (i 0).val < 1024 := (i 0).isLt
  have hi1 : (i 1).val < 256 := (i 1).isLt
  have hN : cfg0.N = 4 := N_0
  have ht : (i 0).val / 256 < cfg0.N := by rw [hN]; omega
  obtain ⟨-, -, -, -, -, -, -, -, -, e0, e1⟩ := first_idx ⟨(i 0).val / 256, ht⟩
  refine ⟨⟨(i 0).val / 256, ht⟩, flush0_4 _, ?_⟩
  rw [first_mem]
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, ht⟩ (1 : Fin 2) * 256 ≤ (i 1).val ∧ (i 1).val < win0_4.index ⟨(i 0).val / 256, ht⟩ (1 : Fin 2) * 256 + 256
    rw [e1]; omega

/-- THE OUTPUT ARRAY after the call: the layer's function of the arrays the call finds, whatever they are. -/
theorem first_array (c : Dev nD) :
    (dat0 (F := Ideal) V c).arrAt 4 cfg0.N
      = Sage.relu (Sage.lin Sage.w25 (V c main_arg0) (V c main_v4) (V c main_v0) (V c main_v1)) :=
  (dat0 (F := Ideal) V c).arrAt_eq_of_cover 4 _ (fun t _ => first_flushed V c t) first_cover

end Cert.KernelIdeal.Blocks

end
-- ==== Proof.BodySecond.lean ====
/-
  The first layer's kernel body on one block of 256 nodes with 10 neighbours each (the second call): what it stores is `relu` of the layer's linear part of the block's rows.
-/
import proofs.«126709_j52664888983659_1_alg».proof.Proof.Gen.KernelIdeal.Skeleton
import proofs.«126709_j52664888983659_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Idealize.ShloMosaic Idealize.ShloMosaic.ValueIdx Cert.KernelIdeal Cert.KernelIdeal.Gen

/-! ## The operand indices of the 256×602 by 602×256 product

At output index (p, q) and contraction coordinate d the left operand is read at (p, d) and the right one at (d, q): one
statement per operand axis. -/

/-- The left operand's row is the output's row. -/
theorem second_lhs_0 (i : S256x256.Idx) (q : dot_S256x602_S602x256_S256x256_1_0_0_1_n_n.contr.Idx) :
    (dot_S256x602_S602x256_S256x256_1_0_0_1_n_n.lhsIdx i q 0).val = (i 0).val := by
  unfold DotDims.lhsIdx
  rw [dif_neg (show ¬(0 : Fin S256x602.rank) ∈ dot_S256x602_S602x256_S256x256_1_0_0_1_n_n.lhsBatch by decide), dif_pos (show (0 : Fin S256x602.rank) ∈ dot_S256x602_S602x256_S256x256_1_0_0_1_n_n.lhsNonContracting by decide)]
  rfl
/-- The left operand's column is the contraction coordinate. -/
theorem second_lhs_1 (i : S256x256.Idx) (q : dot_S256x602_S602x256_S256x256_1_0_0_1_n_n.contr.Idx) :
    (dot_S256x602_S602x256_S256x256_1_0_0_1_n_n.lhsIdx i q 1).val = (q ⟨0, by decide⟩).val :=
  dot_S256x602_S602x256_S256x256_1_0_0_1_n_n.lhsIdx_val_of_single rfl i q
/-- The right operand's row is the contraction coordinate. -/
theorem second_rhs_0 (i : S256x256.Idx) (q : dot_S256x602_S602x256_S256x256_1_0_0_1_n_n.contr.Idx) :
    (dot_S256x602_S602x256_S256x256_1_0_0_1_n_n.rhsIdx i q 0).val = (q ⟨0, by decide⟩).val :=
  dot_S256x602_S602x256_S256x256_1_0_0_1_n_n.rhsIdx_val_of_single rfl i q
/-- The right operand's column is the output's column. -/
theorem second_rhs_1 (i : S256x256.Idx) (q : dot_S256x602_S602x256_S256x256_1_0_0_1_n_n.contr.Idx) :
    (dot_S256x602_S602x256_S256x256_1_0_0_1_n_n.rhsIdx i q 1).val = (i 1).val := by
  unfold DotDims.rhsIdx
  rw [dif_neg (show ¬(1 : Fin S602x256.rank) ∈ dot_S256x602_S602x256_S256x256_1_0_0_1_n_n.rhsBatch by decide), dif_pos (show (1 : Fin S602x256.rank) ∈ dot_S256x602_S602x256_S256x256_1_0_0_1_n_n.rhsNonContracting by decide)]
  rfl

/-- A matrix product accumulated into the zero block, read at (p, q): the sum over the 602 features of the products, the
    accumulator's word being the extended real 0. -/
theorem second_matmul_at {φ₁ φ₂ : FTy} (l : FVec Ideal S256x602 φ₁) (r : FVec Ideal S602x256 φ₂) (p q : Fin 256) :
    matmul dot_S256x602_S602x256_S256x256_1_0_0_1_n_n none l r (constant S256x256 .f32 0x00000000#32) (ix2 p q)
      = ∑ d : Fin 602, l (ix2 p d) * r (ix2 d q) := by
  show FloatOps.matmul dot_S256x602_S602x256_S256x256_1_0_0_1_n_n none l r (constant S256x256 .f32 0x00000000#32) (ix2 p q) = _
  rw [Ideal.matmul_constant_zero_apply, ← Equiv.sum_comp (ValueIdx.contrEquiv1 dot_S256x602_S602x256_S256x256_1_0_0_1_n_n 602 rfl rfl).symm]
  refine Finset.sum_congr rfl fun k _ => ?_
  have hk := ValueIdx.contrEquiv1_symm_val dot_S256x602_S602x256_S256x256_1_0_0_1_n_n 602 rfl rfl k
  have el : dot_S256x602_S602x256_S256x256_1_0_0_1_n_n.lhsIdx (ix2 p q) ((ValueIdx.contrEquiv1 dot_S256x602_S602x256_S256x256_1_0_0_1_n_n 602 rfl rfl).symm k) = ix2 p k := funext fun a => Fin.ext (by
    match a with
    | ⟨0, _⟩ => exact second_lhs_0 _ _
    | ⟨1, _⟩ => exact (second_lhs_1 _ _).trans hk)
  have er : dot_S256x602_S602x256_S256x256_1_0_0_1_n_n.rhsIdx (ix2 p q) ((ValueIdx.contrEquiv1 dot_S256x602_S602x256_S256x256_1_0_0_1_n_n 602 rfl rfl).symm k) = ix2 k q := funext fun a => Fin.ext (by
    match a with
    | ⟨0, _⟩ => exact (second_rhs_0 _ _).trans hk
    | ⟨1, _⟩ => exact second_rhs_1 _ _)
  rw [el, er]

/-- The sum over the neighbour axis, read at (p, d): the sum over the 10 neighbours k of the block at (p, k, d); the index
    with k put back on the dropped axis is (p, k, d), coordinate by coordinate. -/
theorem second_neighbourSum_at (x : FVec Ideal S256x10x602 .f32) (h : S256x10x602.Reduces [1] S256x602)
    (hφ : FKind.Formats .f32) (hacc : (0x00000000#32 : BitVec 32) = FKind.add.neutral .f32 hφ) (p : Fin 256) (d : Fin 602) :
    multiReduction .add [1] S256x602 x 0x00000000#32 h hφ hacc (ix2 p d) = ∑ k : Fin 10, x (ix3 p k d) := by
  have e : multiReduction .add [1] S256x602 x 0x00000000#32 h hφ hacc (ix2 p d) = ∑ k : Fin 10, x (h.lift (ix2 p d) k) :=
    Ideal.multiReduction_add_single x _ h hφ hacc (ix2 p d)
  refine e.trans (Finset.sum_congr rfl fun k _ => congrArg x ?_)
  exact funext fun a => Fin.ext (by
    match a with
    | ⟨0, _⟩ => rfl
    | ⟨1, _⟩ => rfl
    | ⟨2, _⟩ => rfl)

/-- The stored value of the second call's body, as a function of the four loaded blocks: as for the first call, with 10 neighbours and
    the printed divisor 10.0. -/
theorem second_eq (x0 : FVec Ideal S256x602 .f32) (x1 : FVec Ideal S256x10x602 .f32) (w1 w2 : FVec Ideal S602x256 .f32) :
    k1_pay1 (F := Ideal) x0 x1 w1 w2 = Sage.relu (Sage.lin Sage.w10 x0 x1 w1 w2) := by
  funext j
  obtain ⟨p, q, rfl⟩ : ∃ (p : Fin 256) (q : Fin 256), j = ix2 p q := ⟨j 0, j 1, eq_ix2 j⟩
  unfold k1_pay1
  show max (matmul dot_S256x602_S602x256_S256x256_1_0_0_1_n_n none (truncf .bf16 x0 _) (truncf .bf16 (shapeCast S602x256 w1 _) _) (constant S256x256 .f32 0x00000000#32) (ix2 p q)
          + matmul dot_S256x602_S602x256_S256x256_1_0_0_1_n_n none (truncf .bf16 (divf (multiReduction .add [1] S256x602 (shapeCast S256x10x602 x1 _) 0x00000000#32 _ (.inl rfl) rfl) (broadcast S256x602 (Scalar.ofBits .f32 0x41200000#32))) _) (truncf .bf16 (shapeCast S602x256 w2 _) _) (constant S256x256 .f32 0x00000000#32) (ix2 p q))
        (Ideal.ofBits .f32 0x00000000#32)
      = max ((∑ d : Fin 602, x0 (ix2 p d) * w1 (ix2 d q)) + ∑ d : Fin 602, Ideal.div (∑ k : Fin 10, x1 (ix3 p k d)) Sage.w10 * w2 (ix2 d q)) Sage.wzero
  rw [second_matmul_at, second_matmul_at]
  refine congrArg₂ max (congrArg₂ (· + ·) (Finset.sum_congr rfl fun d _ => ?_) (Finset.sum_congr rfl fun d _ => ?_)) rfl
  · show x0 (ix2 p d) * shapeCast S602x256 w1 _ (ix2 d q) = _
    rw [shapeCast_self]
  · show Ideal.div (multiReduction .add [1] S256x602 (shapeCast S256x10x602 x1 _) 0x00000000#32 _ (.inl rfl) rfl (ix2 p d)) Sage.w10 * shapeCast S602x256 w2 _ (ix2 d q) = _
    rw [shapeCast_self, shapeCast_self]
    exact congrArg (fun t => Ideal.div t Sage.w10 * w2 (ix2 d q)) (second_neighbourSum_at x1 _ _ _ p d)

end Cert.KernelIdeal.Body

end
-- ==== Proof.BlocksSecond.lean ====
/-
  The second call (layer one on the 25600 first-hop nodes, 10 neighbours each): its output array after the call is `relu` of the layer's linear part of the arrays the call finds — the blocks of 256 rows that its hundred points write back tile the array, and each is that function of its own rows.
-/
import proofs.«126709_j52664888983659_1_alg».proof.Proof.Gen.KernelIdeal.Frame
import proofs.«126709_j52664888983659_1_alg».proof.Proof.Spec
import proofs.«126709_j52664888983659_1_alg».proof.Proof.SpecBlocks
import proofs.«126709_j52664888983659_1_alg».proof.Proof.BodySecond
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem second_off2 : (![0, 0] : Fin 2 → Nat) = fun _ => 0 := funext fun a => by fin_cases a <;> rfl
theorem second_off3 : (![0, 0, 0] : Fin 3 → Nat) = fun _ => 0 := funext fun a => by fin_cases a <;> rfl

/-- The call's index maps, decided once over its grid: at point `t` the two node windows and the output window sit at block `t` of
    their first axis and block 0 of the others; the two weight windows are the whole weight arrays. -/
theorem second_idx : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of the nodes' own rows at point `t` is rows `256·t + ·` of the array. -/
theorem second_self (c : Dev nD) (t : Fin cfg1.N) (y : S256x602.Idx) (z : S25600x602.Idx)
    (h0 : (z 0).val = t.val * 256 + (y 0).val) (h1 : (z 1).val = (y 1).val) :
    iblk1 V c 0 t y = V c main_arg1 z := by
  obtain ⟨e0, e1, -⟩ := second_idx t
  show V c main_arg1 (((cfg1.win 0).blk t).view.emb y) = V c main_arg1 z
  refine congrArg _ (funext fun a => Fin.ext ?_)
  match a with
  | ⟨0, _⟩ => show win1_0.index t (0 : Fin 2) * 256 + 1 * (y 0).val = (z 0).val; omega
  | ⟨1, _⟩ => show win1_0.index t (1 : Fin 2) * 602 + 1 * (y 1).val = (z 1).val; omega

/-- The block of the neighbours' rows at point `t` is the neighbours of nodes `256·t + ·`. -/
theorem second_neigh (c : Dev nD) (t : Fin cfg1.N) (y : S256x10x602.Idx) (z : S25600x10x602.Idx)
    (h0 : (z 0).val = t.val * 256 + (y 0).val) (h1 : (z 1).val = (y 1).val) (h2 : (z 2).val = (y 2).val) :
    iblk1 V c 1 t y = V c main_v6 z := by
  obtain ⟨-, -, e0, e1, e2, -⟩ := second_idx t
  show V c main_v6 (((cfg1.win 1).blk t).view.emb y) = V c main_v6 z
  refine congrArg _ (funext fun a => Fin.ext ?_)
  match a with
  | ⟨0, _⟩ => show win1_1.index t (0 : Fin 3) * 256 + 1 * (y 0).val = (z 0).val; omega
  | ⟨1, _⟩ => show win1_1.index t (1 : Fin 3) * 10 + 1 * (y 1).val = (z 1).val; omega
  | ⟨2, _⟩ => show win1_1.index t (2 : Fin 3) * 602 + 1 * (y 2).val = (z 2).val; omega

/-- The top weights' block at every point is the whole array. -/
theorem second_top (c : Dev nD) (t : Fin cfg1.N) : iblk1 V c 2 t = V c main_v0 := by
  obtain ⟨-, -, -, -, -, e0, e1, -⟩ := second_idx t
  funext y
  show V c main_v0 (((cfg1.win 2).blk t).view.emb y) = V c main_v0 y
  refine congrArg _ (funext fun a => Fin.ext ?_)
  match a with
  | ⟨0, _⟩ => show win1_2.index t (0 : Fin 2) * 602 + 1 * (y 0).val = (y 0).val; omega
  | ⟨1, _⟩ => show win1_2.index t (1 : Fin 2) * 256 + 1 * (y 1).val = (y 1).val; omega

/-- The bottom weights' block at every point is the whole array. -/
theorem second_bot (c : Dev nD) (t : Fin cfg1.N) : iblk1 V c 3 t = V c main_v1 := by
  obtain ⟨-, -, -, -, -, -, -, e0, e1, -⟩ := second_idx t
  funext y
  show V c main_v1 (((cfg1.win 3).blk t).view.emb y) = V c main_v1 y
  refine congrArg _ (funext fun a => Fin.ext ?_)
  match a with
  | ⟨0, _⟩ => show win1_3.index t (0 : Fin 2) * 602 + 1 * (y 0).val = (y 0).val; omega
  | ⟨1, _⟩ => show win1_3.index t (1 : Fin 2) * 256 + 1 * (y 1).val = (y 1).val; omega

/-- What point `t` writes back is block `t` of the layer's function of the whole arrays as the call finds them: the body's
    stored value is the layer's function of the blocks, and a node's output row reads only that node's rows. -/
theorem second_flushed (c : Dev nD) (t : Fin cfg1.N) :
    (dat1 (F := Ideal) V c).flushed 4 t = ((cfg1.win 4).blk t).view.read (Elt Ideal)
      (Sage.relu (Sage.lin Sage.w10 (V c main_arg1) (V c main_v6) (V c main_v0) (V c main_v1))) := by
  show (cfg1.win 4).cut (grid1.coords t) ((dat1 V c).after 4 t) = _
  rw [after1_4]
  unfold out1_4
  rw [View.canon_unit_zero second_off2]
  simp only [View.ld_unit_zero (S := S256x602) second_off2, View.ld_unit_zero (S := S256x10x602) second_off3, View.ld_unit_zero (S := S602x256) second_off2]
  rw [Body.second_eq]
  obtain ⟨-, -, -, -, -, -, -, -, -, e0, e1⟩ := second_idx t
  funext j
  show Sage.relu (Sage.lin Sage.w10 (iblk1 V c 0 t) (iblk1 V c 1 t) (iblk1 V c 2 t) (iblk1 V c 3 t)) j
    = Sage.relu (Sage.lin Sage.w10 (V c main_arg1) (V c main_v6) (V c main_v0) (V c main_v1)) (((cfg1.win 4).blk t).view.emb j)
  have hj0 : ((((cfg1.win 4).blk t).view.emb j) 0).val = t.val * 256 + (j 0).val := by
    show win1_4.index t (0 : Fin 2) * 256 + 1 * (j 0).val = t.val * 256 + (j 0).val; omega
  have hj1 : ((((cfg1.win 4).blk t).view.emb j) 1).val = (j 1).val := by
    show win1_4.index t (1 : Fin 2) * 256 + 1 * (j 1).val = (j 1).val; omega
  exact Sage.relu_congr _ _ j _ (Sage.lin_rows Sage.w10 (V c main_arg1) (V c main_v6) (V c main_v0) (V c main_v1)
    (iblk1 V c 0 t) (iblk1 V c 1 t) (iblk1 V c 2 t) (iblk1 V c 3 t) (t.val * 256)
    (fun y z h0 h1 => second_self V c t y z h0 h1) (fun y z h0 h1 h2 => second_neigh V c t y z h0 h1 h2)
    (second_top V c t) (second_bot V c t) j _ hj0 hj1)

/-- An index of the output array is in point `t`'s block iff each coordinate is in the block's range on its axis. -/
theorem second_mem (t : Fin cfg1.N) (i : S25600x256.Idx) :
    i ∈ ((cfg1.win 4).blk t).view.set ↔ ∀ a : Fin 2, win1_4.index t a * S256x256.size a ≤ (i a).val ∧ (i a).val < win1_4.index t a * S256x256.size a + S256x256.size a := by
  show i ∈ ((View.whole main_v7).slice (win1_4.rect t)).set ↔ _
  rw [View.set_slice_whole, Rect.mem_set_unit]
  exact Iff.rfl

/-- Every index of the output array is in the block of the point that holds its row: row `r` is in block `r / 256`. -/
theorem second_cover (i : S25600x256.Idx) :
    ∃ t : Fin cfg1.N, (cfg1.win 4).flush t = true ∧ i ∈ ((cfg1.win 4).blk t).view.set := by
  have hi0 : (i 0).val < 25600 := (i 0).isLt
  have hi1 : (i 1).val < 256 := (i 1).isLt
  have hN : cfg1.N = 100 := N_1
  have ht : (i 0).val / 256 < cfg1.N := by rw [hN]; omega
  obtain ⟨-, -, -, -, -, -, -, -, -, e0, e1⟩ := second_idx ⟨(i 0).val / 256, ht⟩
  refine ⟨⟨(i 0).val / 256, ht⟩, flush1_4 _, ?_⟩
  rw [second_mem]
  intro a
  match a with
  | ⟨0, _⟩ =>
    show win1_4.index ⟨(i 0).val / 256, ht⟩ (0 : Fin 2) * 256 ≤ (i 0).val ∧ (i 0).val < win1_4.index ⟨(i 0).val / 256, ht⟩ (0 : Fin 2) * 256 + 256
    rw [e0]; show (i 0).val / 256 * 256 ≤ (i 0).val ∧ (i 0).val < (i 0).val / 256 * 256 + 256; omega
  | ⟨1, _⟩ =>
    show win1_4.index ⟨(i 0).val / 256, ht⟩ (1 : Fin 2) * 256 ≤ (i 1).val ∧ (i 1).val < win1_4.index ⟨(i 0).val / 256, ht⟩ (1 : Fin 2) * 256 + 256
    rw [e1]; omega

/-- THE OUTPUT ARRAY after the call: the layer's function of the arrays the call finds, whatever they are. -/
theorem second_array (c : Dev nD) :
    (dat1 (F := Ideal) V c).arrAt 4 cfg1.N
      = Sage.relu (Sage.lin Sage.w10 (V c main_arg1) (V c main_v6) (V c main_v0) (V c main_v1)) :=
  (dat1 (F := Ideal) V c).arrAt_eq_of_cover 4 _ (fun t _ => second_flushed V c t) second_cover

end Cert.KernelIdeal.Blocks

end
-- ==== Proof.BodyLast.lean ====
/-
  The second layer's kernel body on one block of 256 nodes: what it stores is the row-wise log-softmax of the layer's linear part of the block's rows.

  The stored value is cut in two. The linear part: each of the two matrix products, read at a row and a column, is the sum over
  the 256 hidden features of the products of the operands' entries (the accumulator is the zero block; the narrowing of the
  operands to the matrix unit's format changes no extended real), and the neighbours' mean at a node and a feature is the sum
  over the 25 neighbours divided by the word of 25. The tail: over any block `z`, the row maximum is the fold of `max` from −∞
  along the row, taken against −∞ once more; made a column and spread over the 41 columns it is subtracted from every entry;
  the exponentials of the differences are summed along the row, and the logarithm of that sum, again made a column and spread,
  is subtracted. Read at `(p, q)` these are the specification's formulas term for term.
-/
import proofs.«126709_j52664888983659_1_alg».proof.Proof.Gen.KernelIdeal.Skeleton
import proofs.«126709_j52664888983659_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Idealize.ShloMosaic Idealize.ShloMosaic.ValueIdx Cert.KernelIdeal Cert.KernelIdeal.Gen

/-! ## The linear part -/

/-- One product of the body: a block of 256 rows of 256 features against a 256 × 41 matrix, added into the zero block. -/
def kdot (l : FVec Ideal S256x256 .bf16) (r : FVec Ideal S256x41 .bf16) : FVec Ideal S256x41 .f32 :=
  matmul dot_S256x256_S256x41_S256x41_1_0_0_1_n_n none l r (constant S256x41 .f32 0x00000000#32)

/-- The left operand's row is the result's row. -/
theorem lhs_kdot_0 (i : S256x41.Idx) (q : dot_S256x256_S256x41_S256x41_1_0_0_1_n_n.contr.Idx) :
    (dot_S256x256_S256x41_S256x41_1_0_0_1_n_n.lhsIdx i q 0).val = (i 0).val := by
  unfold DotDims.lhsIdx
  rw [dif_neg (show ¬(0 : Fin S256x256.rank) ∈ dot_S256x256_S256x41_S256x41_1_0_0_1_n_n.lhsBatch by decide), dif_pos (show (0 : Fin S256x256.rank) ∈ dot_S256x256_S256x41_S256x41_1_0_0_1_n_n.lhsNonContracting by decide)]
  rfl
/-- The left operand's column is the contracted index. -/
theorem lhs_kdot_1 (i : S256x41.Idx) (q : dot_S256x256_S256x41_S256x41_1_0_0_1_n_n.contr.Idx) :
    (dot_S256x256_S256x41_S256x41_1_0_0_1_n_n.lhsIdx i q 1).val = (q ⟨0, by decide⟩).val :=
  dot_S256x256_S256x41_S256x41_1_0_0_1_n_n.lhsIdx_val_of_single rfl i q
/-- The right operand's row is the contracted index. -/
theorem rhs_kdot_0 (i : S256x41.Idx) (q : dot_S256x256_S256x41_S256x41_1_0_0_1_n_n.contr.Idx) :
    (dot_S256x256_S256x41_S256x41_1_0_0_1_n_n.rhsIdx i q 0).val = (q ⟨0, by decide⟩).val :=
  dot_S256x256_S256x41_S256x41_1_0_0_1_n_n.rhsIdx_val_of_single rfl i q
/-- The right operand's column is the result's column. -/
theorem rhs_kdot_1 (i : S256x41.Idx) (q : dot_S256x256_S256x41_S256x41_1_0_0_1_n_n.contr.Idx) :
    (dot_S256x256_S256x41_S256x41_1_0_0_1_n_n.rhsIdx i q 1).val = (i 1).val := by
  unfold DotDims.rhsIdx
  rw [dif_neg (show ¬(1 : Fin S256x41.rank) ∈ dot_S256x256_S256x41_S256x41_1_0_0_1_n_n.rhsBatch by decide), dif_pos (show (1 : Fin S256x41.rank) ∈ dot_S256x256_S256x41_S256x41_1_0_0_1_n_n.rhsNonContracting by decide)]
  rfl

/-- The product at `(p, q)`: the sum over the 256 features of row `p` against column `q`. -/
theorem kdot_apply (l : FVec Ideal S256x256 .bf16) (r : FVec Ideal S256x41 .bf16) (p : Fin 256) (q : Fin 41) :
    kdot l r (ix2 p q) = ∑ d : Fin 256, l (ix2 p d) * r (ix2 d q) := by
  refine (Ideal.matmul_constant_zero_apply dot_S256x256_S256x41_S256x41_1_0_0_1_n_n none l r (ix2 p q)).trans ?_
  rw [← Equiv.sum_comp (ValueIdx.contrEquiv1 dot_S256x256_S256x41_S256x41_1_0_0_1_n_n 256 rfl rfl).symm]
  refine Finset.sum_congr rfl fun k _ => ?_
  have hk := ValueIdx.contrEquiv1_symm_val dot_S256x256_S256x41_S256x41_1_0_0_1_n_n 256 rfl rfl k
  have el : dot_S256x256_S256x41_S256x41_1_0_0_1_n_n.lhsIdx (ix2 p q) ((ValueIdx.contrEquiv1 dot_S256x256_S256x41_S256x41_1_0_0_1_n_n 256 rfl rfl).symm k) = ix2 p k := funext fun a => Fin.ext (by
    match a with
    | ⟨0, _⟩ => exact lhs_kdot_0 _ _
    | ⟨1, _⟩ => exact (lhs_kdot_1 _ _).trans hk)
  have er : dot_S256x256_S256x41_S256x41_1_0_0_1_n_n.rhsIdx (ix2 p q) ((ValueIdx.contrEquiv1 dot_S256x256_S256x41_S256x41_1_0_0_1_n_n 256 rfl rfl).symm k) = ix2 k q := funext fun a => Fin.ext (by
    match a with
    | ⟨0, _⟩ => exact (rhs_kdot_0 _ _).trans hk
    | ⟨1, _⟩ => exact rhs_kdot_1 _ _)
  rw [el, er]

/-- The neighbours' mean as the body takes it: the sum over the 25 neighbours, divided by the word of 25. -/
def kmean (x1 : FVec Ideal S256x25x256 .f32) : FVec Ideal S256x256 .f32 :=
  divf (multiReduction .add [1] S256x256 x1 0x00000000#32 reduces_S256x25x256_S256x256 (.inl rfl) rfl)
    (broadcast S256x256 (Scalar.ofBits .f32 0x41C80000#32))

/-- The mean at node `p`, feature `d`. -/
theorem kmean_apply (x1 : FVec Ideal S256x25x256 .f32) (p d : Fin 256) :
    kmean x1 (ix2 p d) = Ideal.div (∑ k : Fin 25, x1 (ix3 p k d)) Sage.w25 := by
  show Ideal.div (multiReduction (F := Ideal) .add [1] S256x256 x1 0x00000000#32 reduces_S256x25x256_S256x256 (.inl rfl) rfl (ix2 p d))
      Sage.w25 = _
  refine congrArg (fun s => Ideal.div s Sage.w25) ?_
  refine (Ideal.multiReduction_add_single x1 0x00000000#32 reduces_S256x25x256_S256x256 (.inl rfl) rfl (ix2 p d)).trans ?_
  show ∑ k : Fin 25, x1 (reduces_S256x25x256_S256x256.lift (ix2 p d) k) = _
  refine Finset.sum_congr rfl fun k _ => congrArg x1 ?_
  funext a
  match a with
  | ⟨0, _⟩ => rfl
  | ⟨1, _⟩ => rfl
  | ⟨2, _⟩ => rfl

/-- The linear part as the body takes it: the block's own rows against the top weights plus the neighbours' means against the
    bottom weights (the narrowing to the matrix unit's operand format changes no value here). -/
def klin (x0 : FVec Ideal S256x256 .f32) (x1 : FVec Ideal S256x25x256 .f32) (w1 w2 : FVec Ideal S256x41 .f32) :
    FVec Ideal S256x41 .f32 :=
  addf (kdot (truncf .bf16 x0 bitsLt_bf16_f32) (truncf .bf16 w1 bitsLt_bf16_f32))
    (kdot (truncf .bf16 (kmean x1) bitsLt_bf16_f32) (truncf .bf16 w2 bitsLt_bf16_f32))

/-- It is the specification's linear part with 25 neighbours. -/
theorem klin_eq (x0 : FVec Ideal S256x256 .f32) (x1 : FVec Ideal S256x25x256 .f32) (w1 w2 : FVec Ideal S256x41 .f32) :
    klin x0 x1 w1 w2 = Sage.lin Sage.w25 x0 x1 w1 w2 := by
  funext j
  obtain ⟨p, q, rfl⟩ : ∃ (p : Fin 256) (q : Fin 41), j = ix2 p q := ⟨j 0, j 1, eq_ix2 j⟩
  show kdot (truncf .bf16 x0 bitsLt_bf16_f32) (truncf .bf16 w1 bitsLt_bf16_f32) (ix2 p q)
      + kdot (truncf .bf16 (kmean x1) bitsLt_bf16_f32) (truncf .bf16 w2 bitsLt_bf16_f32) (ix2 p q)
    = (∑ d : Fin 256, x0 (ix2 p d) * w1 (ix2 d q)) + ∑ d : Fin 256, Ideal.div (∑ k : Fin 25, x1 (ix3 p k d)) Sage.w25 * w2 (ix2 d q)
  rw [kdot_apply, kdot_apply]
  refine congrArg (fun s => (∑ d : Fin 256, x0 (ix2 p d) * w1 (ix2 d q)) + s) (Finset.sum_congr rfl fun d _ => ?_)
  show kmean x1 (ix2 p d) * w2 (ix2 d q) = _
  rw [kmean_apply]

/-! ## Two layout readings: a vector made a column, a column spread over the columns -/

/-- A vector `[a]` cast to a column `[a, 1]` reads, at `(p, u)`, the vector at `p`: both positions in row-major order are `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The softmax tail of the body, over an arbitrary block `z` of 256 rows and 41 columns -/

/-- The row maxima as the body takes them: the fold of `max` from −∞ along each row, then `max` with −∞ once more. -/
def kmax (z : FVec Ideal S256x41 .f32) : FVec Ideal S256 .f32 :=
  maximumf (broadcast S256 (Scalar.ofBits .f32 0xFF800000#32))
    (multiReduction .maximumf [1] S256 z 0xFF800000#32 reduces_S256x41_S256 (.inl rfl) rfl)

/-- The entries less their row's maximum (the maxima made a column and spread over the 41 columns). -/
def kdiff (z : FVec Ideal S256x41 .f32) : FVec Ideal S256x41 .f32 :=
  subf z (broadcastTo S256x41 (shapeCast S256x1 (kmax z) shapeCasts_S256_S256x1) broadcasts_S256x1_S256x41)

/-- Each row's sum of the exponentials of those differences. -/
def ksum (z : FVec Ideal S256x41 .f32) : FVec Ideal S256 .f32 :=
  multiReduction .add [1] S256 (exp (kdiff z)) 0x00000000#32 reduces_S256x41_S256 (.inl rfl) rfl

/-- The differences less the logarithm of their row's sum of exponentials. -/
def ktail (z : FVec Ideal S256x41 .f32) : FVec Ideal S256x41 .f32 :=
  subf (kdiff z) (broadcastTo S256x41 (log (shapeCast S256x1 (ksum z) shapeCasts_S256_S256x1)) broadcasts_S256x1_S256x41)

/-- Row `p`'s maximum is the specification's. -/
theorem kmax_apply (z : FVec Ideal S256x41 .f32) (p : Fin 256) : kmax z (ix1 p) = Sage.rowMax z p := by
  show max (Ideal.ofBits .f32 0xFF800000#32)
      (multiReduction (F := Ideal) .maximumf [1] S256 z 0xFF800000#32 reduces_S256x41_S256 (.inl rfl) rfl (ix1 p)) = _
  refine congrArg (max Sage.wninf) ?_
  refine (Ideal.multiReduction_maximumf_single z 0xFF800000#32 reduces_S256x41_S256 (.inl rfl) rfl (ix1 p)).trans ?_
  show (Finset.univ : Finset (Fin 41)).fold max Sage.wninf (fun j => z (reduces_S256x41_S256.lift (ix1 p) j)) = _
  refine congrArg (fun f => (Finset.univ : Finset (Fin 41)).fold max Sage.wninf f) (funext fun j => congrArg z ?_)
  funext a
  match a with
  | ⟨0, _⟩ => rfl
  | ⟨1, _⟩ => rfl

/-- The difference at `(p, q)`. -/
theorem kdiff_apply (z : FVec Ideal S256x41 .f32) (p : Fin 256) (q : Fin 41) :
    kdiff z (ix2 p q) = z (ix2 p q) - Sage.rowMax z p := by
  show z (ix2 p q) - broadcastTo S256x41 (shapeCast S256x1 (kmax z) shapeCasts_S256_S256x1) broadcasts_S256x1_S256x41 (ix2 p q) = _
  rw [broadcastTo_a1_ab_apply, shapeCast_a_a1_apply, kmax_apply]

/-- Row `p`'s sum of exponentials. -/
theorem ksum_apply (z : FVec Ideal S256x41 .f32) (p : Fin 256) :
    ksum z (ix1 p) = ∑ j : Fin 41, Ideal.exp (z (ix2 p j) - Sage.rowMax z p) := by
  refine (Ideal.multiReduction_add_single (exp (kdiff z)) 0x00000000#32 reduces_S256x41_S256 (.inl rfl) rfl (ix1 p)).trans ?_
  show ∑ j : Fin 41, Ideal.exp (kdiff z (reduces_S256x41_S256.lift (ix1 p) j)) = _
  refine Finset.sum_congr rfl fun j _ => ?_
  have hj : reduces_S256x41_S256.lift (ix1 p) j = ix2 p j := by
    funext a
    match a with
    | ⟨0, _⟩ => rfl
    | ⟨1, _⟩ => rfl
  rw [hj, kdiff_apply]

/-- The tail is the row-wise log-softmax. -/
theorem ktail_eq (z : FVec Ideal S256x41 .f32) : ktail z = Sage.logSoftmax z := by
  funext j
  obtain ⟨p, q, rfl⟩ : ∃ (p : Fin 256) (q : Fin 41), j = ix2 p q := ⟨j 0, j 1, eq_ix2 j⟩
  show kdiff z (ix2 p q)
      - broadcastTo S256x41 (log (shapeCast S256x1 (ksum z) shapeCasts_S256_S256x1)) broadcasts_S256x1_S256x41 (ix2 p q)
    = (z (ix2 p q) - Sage.rowMax z p) - Ideal.log (∑ j : Fin 41, Ideal.exp (z (ix2 p j) - Sage.rowMax z p))
  rw [broadcastTo_a1_ab_apply, kdiff_apply]
  show _ - Ideal.log (shapeCast S256x1 (ksum z) shapeCasts_S256_S256x1 (ix2 p (0 : Fin 1))) = _
  rw [shapeCast_a_a1_apply, ksum_apply]

/-! ## The two together -/

/-- The stored value of the third call's body, as a function of the four loaded blocks: the linear part over the 256 hidden features
    (mean over 25 neighbours), then per row the maximum from −∞, the differences, the logarithm of the sum of their exponentials. -/
theorem last_eq (x0 : FVec Ideal S256x256 .f32) (x1 : FVec Ideal S256x25x256 .f32) (w1 w2 : FVec Ideal S256x41 .f32) :
    k2_pay1 (F := Ideal) x0 x1 w1 w2 = Sage.logSoftmax (Sage.lin Sage.w25 x0 x1 w1 w2) := by
  have h : k2_pay1 (F := Ideal) x0 x1 w1 w2
      = ktail (klin (shapeCast S256x256 x0 shapeCasts_S256x256_S256x256) (shapeCast S256x25x256 x1 shapeCasts_S256x25x256_S256x25x256)
          (shapeCast S256x41 w1 shapeCasts_S256x41_S256x41) (shapeCast S256x41 w2 shapeCasts_S256x41_S256x41)) := rfl
  rw [h, shapeCast_self, shapeCast_self, shapeCast_self, shapeCast_self, klin_eq, ktail_eq]

end Cert.KernelIdeal.Body

end
-- ==== Proof.BlocksLast.lean ====
/-
  The third call (layer two on the 1024 seed nodes, over the 256 hidden features, 25 neighbours each): its output array after the call is the row-wise log-softmax of the layer's linear part of the arrays the call finds — the blocks of 256 rows that its four points write back tile the array, and each is that function of its own rows (a row's maximum and its sum of exponentials read only that row).
-/
import proofs.«126709_j52664888983659_1_alg».proof.Proof.Gen.KernelIdeal.Frame
import proofs.«126709_j52664888983659_1_alg».proof.Proof.Spec
import proofs.«126709_j52664888983659_1_alg».proof.Proof.SpecBlocks
import proofs.«126709_j52664888983659_1_alg».proof.Proof.BodyLast
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem last_off2 : (![0, 0] : Fin 2 → Nat) = fun _ => 0 := funext fun a => by fin_cases a <;> rfl
theorem last_off3 : (![0, 0, 0] : Fin 3 → Nat) = fun _ => 0 := funext fun a => by fin_cases a <;> rfl

/-- The call's index maps, decided once over its grid: at point `t` the two node windows and the output window sit at block `t` of
    their first axis and block 0 of the others; the two weight windows are the whole weight arrays. -/
theorem last_idx : ∀ t : Fin cfg2.N,
    win2_0.index t (0 : Fin 2) = t.val ∧ win2_0.index t (1 : Fin 2) = 0
    ∧ win2_1.index t (0 : Fin 3) = t.val ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The block of the nodes' own rows at point `t` is rows `256·t + ·` of the array. -/
theorem last_self (c : Dev nD) (t : Fin cfg2.N) (y : S256x256.Idx) (z : S1024x256.Idx)
    (h0 : (z 0).val = t.val * 256 + (y 0).val) (h1 : (z 1).val = (y 1).val) :
    iblk2 V c 0 t y = V c main_v5 z := by
  obtain ⟨e0, e1, -⟩ := last_idx t
  show V c main_v5 (((cfg2.win 0).blk t).view.emb y) = V c main_v5 z
  refine congrArg _ (funext fun a => Fin.ext ?_)
  match a with
  | ⟨0, _⟩ => show win2_0.index t (0 : Fin 2) * 256 + 1 * (y 0).val = (z 0).val; omega
  | ⟨1, _⟩ => show win2_0.index t (1 : Fin 2) * 256 + 1 * (y 1).val = (z 1).val; omega

/-- The block of the neighbours' rows at point `t` is the neighbours of nodes `256·t + ·`. -/
theorem last_neigh (c : Dev nD) (t : Fin cfg2.N) (y : S256x25x256.Idx) (z : S1024x25x256.Idx)
    (h0 : (z 0).val = t.val * 256 + (y 0).val) (h1 : (z 1).val = (y 1).val) (h2 : (z 2).val = (y 2).val) :
    iblk2 V c 1 t y = V c main_v8 z := by
  obtain ⟨-, -, e0, e1, e2, -⟩ := last_idx t
  show V c main_v8 (((cfg2.win 1).blk t).view.emb y) = V c main_v8 z
  refine congrArg _ (funext fun a => Fin.ext ?_)
  match a with
  | ⟨0, _⟩ => show win2_1.index t (0 : Fin 3) * 256 + 1 * (y 0).val = (z 0).val; omega
  | ⟨1, _⟩ => show win2_1.index t (1 : Fin 3) * 25 + 1 * (y 1).val = (z 1).val; omega
  | ⟨2, _⟩ => show win2_1.index t (2 : Fin 3) * 256 + 1 * (y 2).val = (z 2).val; omega

/-- The top weights' block at every point is the whole array. -/
theorem last_top (c : Dev nD) (t : Fin cfg2.N) : iblk2 V c 2 t = V c main_v2 := by
  obtain ⟨-, -, -, -, -, e0, e1, -⟩ := last_idx t
  funext y
  show V c main_v2 (((cfg2.win 2).blk t).view.emb y) = V c main_v2 y
  refine congrArg _ (funext fun a => Fin.ext ?_)
  match a with
  | ⟨0, _⟩ => show win2_2.index t (0 : Fin 2) * 256 + 1 * (y 0).val = (y 0).val; omega
  | ⟨1, _⟩ => show win2_2.index t (1 : Fin 2) * 41 + 1 * (y 1).val = (y 1).val; omega

/-- The bottom weights' block at every point is the whole array. -/
theorem last_bot (c : Dev nD) (t : Fin cfg2.N) : iblk2 V c 3 t = V c main_v3 := by
  obtain ⟨-, -, -, -, -, -, -, e0, e1, -⟩ := last_idx t
  funext y
  show V c main_v3 (((cfg2.win 3).blk t).view.emb y) = V c main_v3 y
  refine congrArg _ (funext fun a => Fin.ext ?_)
  match a with
  | ⟨0, _⟩ => show win2_3.index t (0 : Fin 2) * 256 + 1 * (y 0).val = (y 0).val; omega
  | ⟨1, _⟩ => show win2_3.index t (1 : Fin 2) * 41 + 1 * (y 1).val = (y 1).val; omega

/-- What point `t` writes back is block `t` of the layer's function of the whole arrays as the call finds them: the body's
    stored value is the layer's function of the blocks, and a node's output row reads only that node's rows. -/
theorem last_flushed (c : Dev nD) (t : Fin cfg2.N) :
    (dat2 (F := Ideal) V c).flushed 4 t = ((cfg2.win 4).blk t).view.read (Elt Ideal)
      (Sage.logSoftmax (Sage.lin Sage.w25 (V c main_v5) (V c main_v8) (V c main_v2) (V c main_v3))) := by
  show (cfg2.win 4).cut (grid2.coords t) ((dat2 V c).after 4 t) = _
  rw [after2_4]
  unfold out2_4
  rw [View.canon_unit_zero last_off2]
  simp only [View.ld_unit_zero (S := S256x256) last_off2, View.ld_unit_zero (S := S256x25x256) last_off3, View.ld_unit_zero (S := S256x41) last_off2]
  rw [Body.last_eq]
  obtain ⟨-, -, -, -, -, -, -, -, -, e0, e1⟩ := last_idx t
  funext j
  show Sage.logSoftmax (Sage.lin Sage.w25 (iblk2 V c 0 t) (iblk2 V c 1 t) (iblk2 V c 2 t) (iblk2 V c 3 t)) j
    = Sage.logSoftmax (Sage.lin Sage.w25 (V c main_v5) (V c main_v8) (V c main_v2) (V c main_v3)) (((cfg2.win 4).blk t).view.emb j)
  have hj0 : ((((cfg2.win 4).blk t).view.emb j) 0).val = t.val * 256 + (j 0).val := by
    show win2_4.index t (0 : Fin 2) * 256 + 1 * (j 0).val = t.val * 256 + (j 0).val; omega
  have hj1 : ((((cfg2.win 4).blk t).view.emb j) 1).val = (j 1).val := by
    show win2_4.index t (1 : Fin 2) * 41 + 1 * (j 1).val = (j 1).val; omega
  exact Sage.logSoftmax_rows
    (Sage.lin Sage.w25 (iblk2 V c 0 t) (iblk2 V c 1 t) (iblk2 V c 2 t) (iblk2 V c 3 t))
    (Sage.lin Sage.w25 (V c main_v5) (V c main_v8) (V c main_v2) (V c main_v3)) (t.val * 256)
    (fun y y' hy0 hy1 => Sage.lin_rows Sage.w25 (V c main_v5) (V c main_v8) (V c main_v2) (V c main_v3)
      (iblk2 V c 0 t) (iblk2 V c 1 t) (iblk2 V c 2 t) (iblk2 V c 3 t) (t.val * 256)
      (fun y z h0 h1 => last_self V c t y z h0 h1) (fun y z h0 h1 h2 => last_neigh V c t y z h0 h1 h2)
      (last_top V c t) (last_bot V c t) y y' hy0 hy1)
    j _ hj0 hj1

/-- An index of the output array is in point `t`'s block iff each coordinate is in the block's range on its axis. -/
theorem last_mem (t : Fin cfg2.N) (i : S1024x41.Idx) :
    i ∈ ((cfg2.win 4).blk t).view.set ↔ ∀ a : Fin 2, win2_4.index t a * S256x41.size a ≤ (i a).val ∧ (i a).val < win2_4.index t a * S256x41.size a + S256x41.size a := by
  show i ∈ ((View.whole main_v9).slice (win2_4.rect t)).set ↔ _
  rw [View.set_slice_whole, Rect.mem_set_unit]
  exact Iff.rfl

/-- Every index of the output array is in the block of the point that holds its row: row `r` is in block `r / 256`. -/
theorem last_cover (i : S1024x41.Idx) :
    ∃ t : Fin cfg2.N, (cfg2.win 4).flush t = true ∧ i ∈ ((cfg2.win 4).blk t).view.set := by
  have hi0 : (i 0).val < 1024 := (i 0).isLt
  have hi1 : (i 1).val < 41 := (i 1).isLt
  have hN : cfg2.N = 4 := N_2
  have ht : (i 0).val / 256 < cfg2.N := by rw [hN]; omega
  obtain ⟨-, -, -, -, -, -, -, -, -, e0, e1⟩ := last_idx ⟨(i 0).val / 256, ht⟩
  refine ⟨⟨(i 0).val / 256, ht⟩, flush2_4 _, ?_⟩
  rw [last_mem]
  intro a
  match a with
  | ⟨0, _⟩ =>
    show win2_4.index ⟨(i 0).val / 256, ht⟩ (0 : Fin 2) * 256 ≤ (i 0).val ∧ (i 0).val < win2_4.index ⟨(i 0).val / 256, ht⟩ (0 : Fin 2) * 256 + 256
    rw [e0]; show (i 0).val / 256 * 256 ≤ (i 0).val ∧ (i 0).val < (i 0).val / 256 * 256 + 256; omega
  | ⟨1, _⟩ =>
    show win2_4.index ⟨(i 0).val / 256, ht⟩ (1 : Fin 2) * 41 ≤ (i 1).val ∧ (i 1).val < win2_4.index ⟨(i 0).val / 256, ht⟩ (1 : Fin 2) * 41 + 41
    rw [e1]; omega

/-- THE OUTPUT ARRAY after the call: the layer's function of the arrays the call finds, whatever they are. -/
theorem last_array (c : Dev nD) :
    (dat2 (F := Ideal) V c).arrAt 4 cfg2.N
      = Sage.logSoftmax (Sage.lin Sage.w25 (V c main_v5) (V c main_v8) (V c main_v2) (V c main_v3)) :=
  (dat2 (F := Ideal) V c).arrAt_eq_of_cover 4 _ (fun t _ => last_flushed V c t) last_cover

end Cert.KernelIdeal.Blocks

end
-- ==== Proof.Chain.lean ====
/-
  The idealized kernel's result as the network of its arguments. The run's contents at each boundary are a fold from the launch
  memory: a host stretch changes only the arrays its operations write (two halves of each weight matrix, three row-major
  regroupings), a call changes only its output array and leaves it at its layer's function of the arrays it finds
  (`Blocks.first_array`, `second_array`, `last_array`). Walking back from the result: the third call finds the first call's output
  untouched since that call, the regrouped output of the second, and the halves of the second weight matrix cut before the first
  call; the first and second calls find the arguments and the halves of the first weight matrix as launched or as cut.
  A half of a weight matrix is the rows of `Spec.lean`'s `rows`.
-/
import proofs.«126709_j52664888983659_1_alg».proof.Proof.Gen.KernelIdeal.Frame
import proofs.«126709_j52664888983659_1_alg».proof.Proof.Spec
import proofs.«126709_j52664888983659_1_alg».proof.Proof.BlocksFirst
import proofs.«126709_j52664888983659_1_alg».proof.Proof.BlocksSecond
import proofs.«126709_j52664888983659_1_alg».proof.Proof.BlocksLast
import Idealize.ShloMosaic.Lib.StableHlo.Run
import Idealize.ShloMosaic.Lib.Pipeline.Value
import Idealize.ShloMosaic.Lib.ValueIdx

set_option maxRecDepth 16384

noncomputable section

namespace Cert.KernelIdeal.Chain

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- A host stretch leaves an array that none of its operations writes as it found it. -/
macro "stretch_keeps" ops:ident : tactic =>
  `(tactic| exact StableHlo.after_of_forall_not_mem _ _ (List.forall_iff_forall_mem.mp (by
      simp only [$ops:ident, List.Forall, StableHlo.unary_writes, StableHlo.reshape_writes, Finset.mem_singleton]
      repeat' apply And.intro
      all_goals exact StableHlo.devRef_ne_of_ne (by decide))))

/-! ## A half of a weight matrix is a run of its rows -/

theorem top0 (W : FVec Ideal S1204x256 .f32) :
    extractStridedSlice S602x256 ![0, 0] W slices_S1204x256_S602x256_0_0 = Sage.rows 602 0 (by omega) W := by
  funext j
  refine extractStridedSlice_apply ![0, 0] W slices_S1204x256_S602x256_0_0 j _ fun a => ?_
  match a with
  | ⟨0, _⟩ => rfl
  | ⟨1, _⟩ => show (j 1).val = 0 + (j 1).val; omega

theorem bot0 (W : FVec Ideal S1204x256 .f32) :
    extractStridedSlice S602x256 ![602, 0] W slices_S1204x256_S602x256_602_0 = Sage.rows 602 602 (by omega) W := by
  funext j
  refine extractStridedSlice_apply ![602, 0] W slices_S1204x256_S602x256_602_0 j _ fun a => ?_
  match a with
  | ⟨0, _⟩ => rfl
  | ⟨1, _⟩ => show (j 1).val = 0 + (j 1).val; omega

theorem top1 (W : FVec Ideal S512x41 .f32) :
    extractStridedSlice S256x41 ![0, 0] W slices_S512x41_S256x41_0_0 = Sage.rows 256 0 (by omega) W := by
  funext j
  refine extractStridedSlice_apply ![0, 0] W slices_S512x41_S256x41_0_0 j _ fun a => ?_
  match a with
  | ⟨0, _⟩ => rfl
  | ⟨1, _⟩ => show (j 1).val = 0 + (j 1).val; omega

theorem bot1 (W : FVec Ideal S512x41 .f32) :
    extractStridedSlice S256x41 ![256, 0] W slices_S512x41_S256x41_256_0 = Sage.rows 256 256 (by omega) W := by
  funext j
  refine extractStridedSlice_apply ![256, 0] W slices_S512x41_S256x41_256_0 j _ fun a => ?_
  match a with
  | ⟨0, _⟩ => rfl
  | ⟨1, _⟩ => show (j 1).val = 0 + (j 1).val; omega

/-! ## What the first call finds (after the first host stretch) -/

theorem in0_self (c : Dev nD) : V1 m ρ c main_arg0 = m ((c : Thread nD τ).loc main_arg0) := by
  show StableHlo.after hostOps0 (W0 m ρ c) (Proc.devRef .tc main_arg0) = W0 m ρ c (Proc.devRef .tc main_arg0)
  stretch_keeps hostOps0

theorem in0_neigh (c : Dev nD) :
    V1 m ρ c main_v4 = shapeCast S1024x25x602 (m ((c : Thread nD τ).loc main_arg1)) shapeCasts_S25600x602_S1024x25x602 := by
  show StableHlo.after hostOps0 (W0 m ρ c) (Proc.devRef .tc main_v4) = _
  after_results
  rfl

theorem in0_top (c : Dev nD) : V1 m ρ c main_v0 = Sage.rows 602 0 (by omega) (m ((c : Thread nD τ).loc main_arg3)) := by
  rw [← top0]
  show StableHlo.after hostOps0 (W0 m ρ c) (Proc.devRef .tc main_v0) = _
  after_results

theorem in0_bot (c : Dev nD) : V1 m ρ c main_v1 = Sage.rows 602 602 (by omega) (m ((c : Thread nD τ).loc main_arg3)) := by
  rw [← bot0]
  show StableHlo.after hostOps0 (W0 m ρ c) (Proc.devRef .tc main_v1) = _
  after_results

theorem in0_top1 (c : Dev nD) : V1 m ρ c main_v2 = Sage.rows 256 0 (by omega) (m ((c : Thread nD τ).loc main_arg4)) := by
  rw [← top1]
  show StableHlo.after hostOps0 (W0 m ρ c) (Proc.devRef .tc main_v2) = _
  after_results

theorem in0_bot1 (c : Dev nD) : V1 m ρ c main_v3 = Sage.rows 256 256 (by omega) (m ((c : Thread nD τ).loc main_arg4)) := by
  rw [← bot1]
  show StableHlo.after hostOps0 (W0 m ρ c) (Proc.devRef .tc main_v3) = _
  after_results

theorem in0_arg1 (c : Dev nD) : V1 m ρ c main_arg1 = m ((c : Thread nD τ).loc main_arg1) := by
  show StableHlo.after hostOps0 (W0 m ρ c) (Proc.devRef .tc main_arg1) = W0 m ρ c (Proc.devRef .tc main_arg1)
  stretch_keeps hostOps0

theorem in0_arg2 (c : Dev nD) : V1 m ρ c main_arg2 = m ((c : Thread nD τ).loc main_arg2) := by
  show StableHlo.after hostOps0 (W0 m ρ c) (Proc.devRef .tc main_arg2) = W0 m ρ c (Proc.devRef .tc main_arg2)
  stretch_keeps hostOps0

/-- The first call's output: the hidden features of the 1024 seed nodes. -/
def hidden0 (c : Dev nD) : FVec Ideal S1024x256 .f32 :=
  Sage.relu (Sage.lin Sage.w25 (m ((c : Thread nD τ).loc main_arg0))
    (shapeCast S1024x25x602 (m ((c : Thread nD τ).loc main_arg1)) shapeCasts_S25600x602_S1024x25x602)
    (Sage.rows 602 0 (by omega) (m ((c : Thread nD τ).loc main_arg3))) (Sage.rows 602 602 (by omega) (m ((c : Thread nD τ).loc main_arg3))))

theorem out0 (c : Dev nD) : V2 m ρ c main_v5 = hidden0 m c := by
  refine (W2_arr m ρ c 4).trans ((Blocks.first_array (V1 m ρ) c).trans ?_)
  rw [in0_self, in0_neigh, in0_top, in0_bot]
  rfl

/-! ## What the second call finds -/

theorem in1_self (c : Dev nD) : V3 m ρ c main_arg1 = m ((c : Thread nD τ).loc main_arg1) := by
  refine Eq.trans ?_ (in0_arg1 m ρ c)
  refine Eq.trans (b := W2 m ρ c (Proc.devRef .tc main_arg1)) ?_ (W2_of_ne m ρ c main_arg1 (by decide))
  show StableHlo.after hostOps1 (W2 m ρ c) (Proc.devRef .tc main_arg1) = _
  stretch_keeps hostOps1

theorem in1_neigh (c : Dev nD) :
    V3 m ρ c main_v6 = shapeCast S25600x10x602 (m ((c : Thread nD τ).loc main_arg2)) shapeCasts_S256000x602_S25600x10x602 := by
  have e : W2 m ρ c (Proc.devRef .tc main_arg2) = m ((c : Thread nD τ).loc main_arg2) :=
    (W2_of_ne m ρ c main_arg2 (by decide)).trans (in0_arg2 m ρ c)
  rw [← e]
  show StableHlo.after hostOps1 (W2 m ρ c) (Proc.devRef .tc main_v6) = _
  after_results
  rfl

theorem in1_top (c : Dev nD) : V3 m ρ c main_v0 = Sage.rows 602 0 (by omega) (m ((c : Thread nD τ).loc main_arg3)) := by
  refine Eq.trans ?_ (in0_top m ρ c)
  refine Eq.trans (b := W2 m ρ c (Proc.devRef .tc main_v0)) ?_
    ((W2_arr m ρ c 2).trans (((dat0 (V1 m ρ) c).arrAt_in 2 rfl _).trans (A_eq0 (V1 m ρ) c 2)))
  show StableHlo.after hostOps1 (W2 m ρ c) (Proc.devRef .tc main_v0) = _
  stretch_keeps hostOps1

theorem in1_bot (c : Dev nD) : V3 m ρ c main_v1 = Sage.rows 602 602 (by omega) (m ((c : Thread nD τ).loc main_arg3)) := by
  refine Eq.trans ?_ (in0_bot m ρ c)
  refine Eq.trans (b := W2 m ρ c (Proc.devRef .tc main_v1)) ?_
    ((W2_arr m ρ c 3).trans (((dat0 (V1 m ρ) c).arrAt_in 3 rfl _).trans (A_eq0 (V1 m ρ) c 3)))
  show StableHlo.after hostOps1 (W2 m ρ c) (Proc.devRef .tc main_v1) = _
  stretch_keeps hostOps1

/-- The second call's output: the hidden features of the 25600 first-hop nodes. -/
def hidden1 (c : Dev nD) : FVec Ideal S25600x256 .f32 :=
  Sage.relu (Sage.lin Sage.w10 (m ((c : Thread nD τ).loc main_arg1))
    (shapeCast S25600x10x602 (m ((c : Thread nD τ).loc main_arg2)) shapeCasts_S256000x602_S25600x10x602)
    (Sage.rows 602 0 (by omega) (m ((c : Thread nD τ).loc main_arg3))) (Sage.rows 602 602 (by omega) (m ((c : Thread nD τ).loc main_arg3))))

theorem out1 (c : Dev nD) : V4 m ρ c main_v7 = hidden1 m c := by
  refine (W4_arr m ρ c 4).trans ((Blocks.second_array (V3 m ρ) c).trans ?_)
  rw [in1_self, in1_neigh, in1_top, in1_bot]
  rfl

/-! ## What the third call finds -/

theorem in2_self (c : Dev nD) : V5 m ρ c main_v5 = hidden0 m c := by
  refine Eq.trans ?_ (out0 m ρ c)
  have e3 : W3 m ρ c (Proc.devRef .tc main_v5) = W2 m ρ c (Proc.devRef .tc main_v5) := by
    show StableHlo.after hostOps1 (W2 m ρ c) (Proc.devRef .tc main_v5) = _
    stretch_keeps hostOps1
  refine Eq.trans (b := W4 m ρ c (Proc.devRef .tc main_v5)) ?_ ((W4_of_ne m ρ c main_v5 (by decide)).trans e3)
  show StableHlo.after hostOps2 (W4 m ρ c) (Proc.devRef .tc main_v5) = _
  stretch_keeps hostOps2

theorem in2_neigh (c : Dev nD) :
    V5 m ρ c main_v8 = shapeCast S1024x25x256 (hidden1 m c) shapeCasts_S25600x256_S1024x25x256 := by
  rw [← out1 m ρ c]
  show StableHlo.after hostOps2 (W4 m ρ c) (Proc.devRef .tc main_v8) = _
  after_results
  rfl

theorem in2_top (c : Dev nD) : V5 m ρ c main_v2 = Sage.rows 256 0 (by omega) (m ((c : Thread nD τ).loc main_arg4)) := by
  refine Eq.trans ?_ (in0_top1 m ρ c)
  have e3 : W3 m ρ c (Proc.devRef .tc main_v2) = W2 m ρ c (Proc.devRef .tc main_v2) := by
    show StableHlo.after hostOps1 (W2 m ρ c) (Proc.devRef .tc main_v2) = _
    stretch_keeps hostOps1
  refine Eq.trans (b := W4 m ρ c (Proc.devRef .tc main_v2)) ?_
    ((W4_of_ne m ρ c main_v2 (by decide)).trans (e3.trans (W2_of_ne m ρ c main_v2 (by decide))))
  show StableHlo.after hostOps2 (W4 m ρ c) (Proc.devRef .tc main_v2) = _
  stretch_keeps hostOps2

theorem in2_bot (c : Dev nD) : V5 m ρ c main_v3 = Sage.rows 256 256 (by omega) (m ((c : Thread nD τ).loc main_arg4)) := by
  refine Eq.trans ?_ (in0_bot1 m ρ c)
  have e3 : W3 m ρ c (Proc.devRef .tc main_v3) = W2 m ρ c (Proc.devRef .tc main_v3) := by
    show StableHlo.after hostOps1 (W2 m ρ c) (Proc.devRef .tc main_v3) = _
    stretch_keeps hostOps1
  refine Eq.trans (b := W4 m ρ c (Proc.devRef .tc main_v3)) ?_
    ((W4_of_ne m ρ c main_v3 (by decide)).trans (e3.trans (W2_of_ne m ρ c main_v3 (by decide))))
  show StableHlo.after hostOps2 (W4 m ρ c) (Proc.devRef .tc main_v3) = _
  stretch_keeps hostOps2

/-- THE RESULT ARRAY at the run's last boundary is the network of the five arguments as launched. -/
theorem result_eq_net (c : Dev nD) :
    W6 m ρ c (Proc.devRef .tc main_v9)
      = Sage.net shapeCasts_S25600x602_S1024x25x602 shapeCasts_S256000x602_S25600x10x602 shapeCasts_S25600x256_S1024x25x256
          (m ((c : Thread nD τ).loc main_arg0)) (m ((c : Thread nD τ).loc main_arg1)) (m ((c : Thread nD τ).loc main_arg2))
          (m ((c : Thread nD τ).loc main_arg3)) (m ((c : Thread nD τ).loc main_arg4)) := by
  refine (W6_arr m ρ c 4).trans ((Blocks.last_array (V5 m ρ) c).trans ?_)
  rw [in2_self, in2_neigh, in2_top, in2_bot]
  rfl

end Cert.KernelIdeal.Chain

end
-- ==== Proof.lean ====
/-
  The certificate of a two-layer graph network with mean aggregation (three kernel calls) against its plain reference.

  Both programs compute, at the extended reals, the network of `Proof/Spec.lean`: a layer's linear part is a node's own row
  against the top half of the weight matrix plus the mean of its neighbours' rows against the bottom half — the reference
  multiplies the concatenated row `[self , mean]` by the whole matrix, which is the same sum split at the joined column
  (only associativity and commutativity of `+`, so the precondition is never opened) —, the first layer is followed by `relu`,
  the second by a row-wise log-softmax; means divide by the same printed 25.0 and 10.0 on both sides, and rounding to bf16
  is the identity at the extended reals.
  The kernel side: each call leaves its output array at its layer's function of the arrays it finds (`Proof/Blocks*.lean` over the
  bodies' stored values, `Proof/Body*.lean`), and the run's contents at its last boundary are then the network of the arguments
  (`Proof/Chain.lean`, over the run with its result named, `Proof/KernelRunNamed.lean`). The reference side: its run
  (`Proof/RefRun.lean`) read one operation at a time (`Proof/RefRead.lean`) is the same network (`Proof/RefNet.lean`).
  The ideal pass rewrote nothing, so `preserves` is trivial; the three frames are the generated ones (the reference's is its run
  with the result dropped).
-/
import proofs.«126709_j52664888983659_1_alg».proof.Defs
import proofs.«126709_j52664888983659_1_alg».proof.Proof.Gen.Kernel
import proofs.«126709_j52664888983659_1_alg».proof.Proof.Gen.Kernel.Skeleton
import proofs.«126709_j52664888983659_1_alg».proof.Proof.Gen.Kernel.Launch
import proofs.«126709_j52664888983659_1_alg».proof.Proof.Gen.Kernel.Points
import proofs.«126709_j52664888983659_1_alg».proof.Proof.Gen.Kernel.Frame
import proofs.«126709_j52664888983659_1_alg».proof.Proof.Gen.KernelIdeal
import proofs.«126709_j52664888983659_1_alg».proof.Proof.Gen.KernelIdeal.Skeleton
import proofs.«126709_j52664888983659_1_alg».proof.Proof.Gen.KernelIdeal.Launch
import proofs.«126709_j52664888983659_1_alg».proof.Proof.Gen.KernelIdeal.Points
import proofs.«126709_j52664888983659_1_alg».proof.Proof.Gen.KernelIdeal.Frame
import proofs.«126709_j52664888983659_1_alg».proof.Proof.Gen.ReferenceIdeal
import proofs.«126709_j52664888983659_1_alg».proof.Proof.Gen.Pre_finite_inputs
import proofs.«126709_j52664888983659_1_alg».proof.Proof.RefRun
import proofs.«126709_j52664888983659_1_alg».proof.Proof.RefRead
import proofs.«126709_j52664888983659_1_alg».proof.Proof.RefNet
import proofs.«126709_j52664888983659_1_alg».proof.Proof.KernelRunNamed
import proofs.«126709_j52664888983659_1_alg».proof.Proof.Chain
import proofs.«126709_j52664888983659_1_alg».proof.Proof.Spec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten by the ideal pass. -/
theorem preserves : Cert.preserves_Kernel_KernelIdeal := trivial

/-- Both runs end with the result array at the network of the arguments; the arguments agree, so the results are equal. -/
theorem algebraic : Cert.algebraic_KernelIdeal_ReferenceIdeal := by
  intro m ρ m' ρ' _ hagree
  refine ⟨fun c => Cert.Sage.net Cert.KernelIdeal.Gen.shapeCasts_S25600x602_S1024x25x602
      Cert.KernelIdeal.Gen.shapeCasts_S256000x602_S25600x10x602 Cert.KernelIdeal.Gen.shapeCasts_S25600x256_S1024x25x256
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Chain.result_eq_net m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v20_eq, Cert.ReferenceIdeal.Net.val_eq_net,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
